-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_two_var_sq" .f32 0x40D88955#32 ((67108864 / 9917423 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 32000#32
  let main_v4 : IVec S4096 32 := broadcastInDim S4096 ![] bcast_S_S4096 main_c_0
  let main_v5 : IVec S4096 1 := cmpi .slt main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  main_v7
-- ==== Kernel.lean ====
abbrev S4096x32000 : Shape := ⟨2, ![4096, 32000]⟩
abbrev S4096 : Shape := ⟨1, ![4096]⟩
abbrev S4096x1 : Shape := ⟨2, ![4096, 1]⟩
abbrev S2x1x1 : Shape := ⟨3, ![2, 1, 1]⟩
abbrev S64x32000 : Shape := ⟨2, ![64, 32000]⟩
abbrev S64x1 : Shape := ⟨2, ![64, 1]⟩
abbrev S1x1x1 : Shape := ⟨3, ![1, 1, 1]⟩
abbrev S1x1 : Shape := ⟨2, ![1, 1]⟩
abbrev S64 : Shape := ⟨1, ![64]⟩
abbrev S1 : Shape := ⟨1, ![1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S2x1x1, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | .local _ .vmem, ⟨9, _⟩ => ⟨S1x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v57 : BitVec 1 := Scalar.cmpi .eq arg1 c31_i32
  let v58 : BitVec 32 := Scalar.extui v57
  let c0_i32_23 : BitVec 32 := 0#32
  let v59 : BitVec 1 := Scalar.cmpi .ne v58 c0_i32_23
  v59

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x32000_S64x32000_0_0 : ∀ a, (![0, 0] : Fin 2 → Nat) a + S64x32000.size a ≤ S64x32000.size a
  h_S64x32000 : 0 < S64x32000.numel
  reduces_S64x32000_S64 : S64x32000.Reduces [1] S64
  shapeCasts_S64_S64x1 : S64.ShapeCasts S64x1
  broadcasts_S64x1_S64x32000 : S64x1.Broadcasts S64x32000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x32000_d1_w32 : S64x32000.Iotas .tc 32 [1]
  reduces_S64x1_S1 : S64x1.Reduces [0] S1
  shapeCasts_S1_S1x1 : S1.ShapeCasts S1x1
  natLt_1_32 : 1 < 32
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x32000, .f32⟩
  | .hbm, ⟨18, _⟩ => ⟨S_, .f32⟩
  | .hbm, ⟨19, _⟩ => ⟨S4096x32000, .f32⟩
  | .hbm, ⟨20, _⟩ => ⟨S4096x32000, .f32⟩
  | .hbm, ⟨21, _⟩ => ⟨S4096x32000, .f32⟩
  | .hbm, ⟨22, _⟩ => ⟨S4096x32000, .f32⟩
  | .hbm, ⟨23, _⟩ => ⟨S_, .f32⟩
  | .hbm, ⟨24, _⟩ => ⟨S4096x32000, .f32⟩
  | .hbm, ⟨25, _⟩ => ⟨S4096x32000, .f32⟩
  | .hbm, ⟨26, _⟩ => ⟨S4096x32000, .f32⟩
  | .hbm, ⟨27, _⟩ => ⟨S_, .f32⟩
  | .hbm, ⟨28, _⟩ => ⟨S4096x32000, .f32⟩
  | .hbm, ⟨29, _⟩ => ⟨S4096x32000, .f32⟩
  | .hbm, ⟨30, _⟩ => ⟨S4096x32000, .f32⟩
  | .hbm, ⟨31, _⟩ => ⟨S4096x32000, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S_, .i32⟩
  | .hbm, ⟨43, _⟩ => ⟨S4096x1, .i32⟩
  | .hbm, ⟨44, _⟩ => ⟨S4096x1, .i32⟩
  | .hbm, ⟨45, _⟩ => ⟨S4096x1, .i32⟩
  | .hbm, ⟨46, _⟩ => ⟨S4096x1x1, .i32⟩
  | .hbm, ⟨47, _⟩ => ⟨S1, .i32⟩
  | .hbm, ⟨48, _⟩ => ⟨S_, .i32⟩
  | .hbm, ⟨49, _⟩ => ⟨S4096x1x1, .i32⟩
  | .hbm, ⟨50, _⟩ => ⟨S4096x1x1, .i1⟩
  | .hbm, ⟨51, _⟩ => ⟨S1x1x1, .i32⟩
  | .hbm, ⟨52, _⟩ => ⟨S4096x1x1, .i32⟩
  | .hbm, ⟨53, _⟩ => ⟨S4096x1x1, .i1⟩
  | .hbm, ⟨54, _⟩ => ⟨S4096x1x1, .i1⟩
  | .hbm, ⟨55, _⟩ => ⟨S_, .i1⟩
  | .hbm, ⟨56, _⟩ => ⟨S4096x1, .i1⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096, .f32⟩
  | .hbm, ⟨62, _⟩ => ⟨S4096, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_c_3 : Ref sig .tc := ⟨.hbm, 63, rfl⟩
abbrev main_v21 : Ref sig .tc := ⟨.hbm, 64, rfl⟩
abbrev main_v22 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_v23 : Ref sig .tc := ⟨.hbm, 69, rfl⟩
abbrev main_cst_5 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x32000 : S_.BroadcastsInDim S4096x32000 (![] : Fin 0 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.ScratchPieces.lean ====
import proofs.«418253_j57552561766415_3_alg».proof.Proof.Gen.KernelIdeal.Frame
import Idealize.ShloMosaic.Lib.Pipeline.Value
import Idealize.ShloMosaic.Lib.Tactic

/-!
# What one grid point leaves in the two running totals and in the two outputs

The kernel keeps two one-element running totals between grid points: the sum of the rows' terms and the count of
valid rows. At the first point of a core's run (case A) both are set to zero and then the block's partial sum and
count are added; at every later point (cases B and C) the block's partial sum and count are added to what the point
before left; at the last point of the run (case C) the two totals are also copied, re-shaped, into the two outputs.
Each lemma below reads one of these stored values back as the body's arithmetic of the point's input blocks.
-/

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a run: the sum total is the block's partial sum added to the zero just stored. -/
theorem sum_A (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S64x32000 .f32) (x1 : Vec F S64x1 .i32) :
    sout0_A_0 c i arg2 harg2 arg3 harg3 arg4 harg4 arg5 harg5 arg6 harg6 arg7 harg7 hc0 hc1 x0 x1 = k0_pay1 (k0_pay8 x1) (k0_pay9 x0 x1) (k0_pay10 (F := F)) (k0_pay5 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- First point of a run: the count total is the block's count added to the zero just stored. -/
theorem cnt_A (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S64x32000 .f32) (x1 : Vec F S64x1 .i32) :
    sout0_A_1 c i arg2 harg2 arg3 harg3 arg4 harg4 arg5 harg5 arg6 harg6 arg7 harg7 hc0 hc1 x0 x1 = k0_pay2 (k0_pay8 x1) (k0_pay6 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- A middle point: the sum total is the block's partial sum added to what the point before left. -/
theorem sum_B (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S64x32000 .f32) (x1 : Vec F S64x1 .i32)
    (xs0 xs1 : Vec F S1x1 .f32) :
    sout0_B_0 c i arg2 harg2 arg3 harg3 arg4 harg4 arg5 harg5 arg6 harg6 arg7 harg7 hc0 hc1 x0 x1 xs0 xs1 = k0_pay1 (k0_pay8 x1) (k0_pay9 x0 x1) (k0_pay10 (F := F)) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1) hz2]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- A middle point: the count total is the block's count added to what the point before left. -/
theorem cnt_B (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S64x32000 .f32) (x1 : Vec F S64x1 .i32)
    (xs0 xs1 : Vec F S1x1 .f32) :
    sout0_B_1 c i arg2 harg2 arg3 harg3 arg4 harg4 arg5 harg5 arg6 harg6 arg7 harg7 hc0 hc1 x0 x1 xs0 xs1 = k0_pay2 (k0_pay8 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1) hz2]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- The last point of a run: the sum total, as at a middle point. -/
theorem sum_C (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S64x32000 .f32) (x1 : Vec F S64x1 .i32)
    (xs0 xs1 : Vec F S1x1 .f32) :
    sout0_C_0 c i arg2 harg2 arg3 harg3 arg4 harg4 arg5 harg5 arg6 harg6 arg7 harg7 hc0 hc1 x0 x1 xs0 xs1 = k0_pay1 (k0_pay8 x1) (k0_pay9 x0 x1) (k0_pay10 (F := F)) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1) hz2]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- The last point of a run: the count total, as at a middle point. -/
theorem cnt_C (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S64x32000 .f32) (x1 : Vec F S64x1 .i32)
    (xs0 xs1 : Vec F S1x1 .f32) :
    sout0_C_1 c i arg2 harg2 arg3 harg3 arg4 harg4 arg5 harg5 arg6 harg6 arg7 harg7 hc0 hc1 x0 x1 xs0 xs1 = k0_pay2 (k0_pay8 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1) hz2]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- The last point of a run: the first output is the sum total just stored, re-shaped to rank 3. -/
theorem outSum_C (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S64x32000 .f32) (x1 : Vec F S64x1 .i32)
    (xs0 xs1 : Vec F S1x1 .f32) :
    out0_C_2 c i arg2 harg2 arg3 harg3 arg4 harg4 arg5 harg5 arg6 harg6 arg7 harg7 hc0 hc1 x0 x1 xs0 xs1
      = k0_pay3 (k0_pay1 (k0_pay8 x1) (k0_pay9 x0 x1) (k0_pay10 (F := F)) xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1) hz3]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

/-- The last point of a run: the second output is the count total just stored, re-shaped to rank 3. -/
theorem outCnt_C (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S64x32000 .f32) (x1 : Vec F S64x1 .i32)
    (xs0 xs1 : Vec F S1x1 .f32) :
    out0_C_3 c i arg2 harg2 arg3 harg3 arg4 harg4 arg5 harg5 arg6 harg6 arg7 harg7 hc0 hc1 x0 x1 xs0 xs1 = k0_pay4 (k0_pay2 (k0_pay8 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1) hz3]
  simp only [View.readAt_eq_ld, harg2.read_unread, harg3.read_unread, harg6.read_unread, harg7.read_unread, View.ld_unit_zero (S := S64x32000) hz2, View.ld_unit_zero (S := S64x1) hz2, View.ld_unit_zero (S := S1x1) hz2, View.readCov_unit_zero (S := S1x1) _ hz2]

end Cert.KernelIdeal.Pieces

end
-- ==== Proof.RowSpec.lean ====
import Idealize.ShloMosaic.PureOps.Ideal
import Idealize.ShloMosaic.Lib.ValueIdx

/-!
# The Gaussian-reweighted negative log-likelihood, row by row, on the extended reals

For a row `x` of 32000 logits, `logProb x k = (x k - max x) - log (∑ exp (x - max x))` is the log-softmax
at column `k`. From a log-probability `lp`, with `p = exp lp`, the row's term is
`(exp (-(p - 1/2)² / (2σ²)) - 0.1 p) · lp`, where `2σ²` and `0.1` are the two float literals as
the real numbers their words denote. A row whose target word is `-1` is ignored: it contributes `0`
to the sum and `0` to the count of valid rows. The loss is minus the sum of the terms over the
count of valid rows.
-/

noncomputable section

namespace Cert.GaussNll

open Idealize.ShloMosaic

/-- The centre of the Gaussian, `1/2`. -/
abbrev half : EReal := Ideal.ofBits .f32 0x3F000000#32
/-- The linear coefficient, the float nearest `0.1`. -/
abbrev tenth : EReal := Ideal.ofBits .f32 0x3DCCCCCD#32
/-- The Gaussian's denominator `2σ²`, the float `9917423 / 2^26`. -/
abbrev twoVarSq : EReal := Ideal.ofBits .f32 0x3E1753EF#32
/-- The target word that marks an ignored row: `-1`. -/
abbrev ignored : BitVec 32 := 4294967295#32

/-- A row's maximum, folded from `⊥`. -/
def rowMax (x : Fin 32000 → EReal) : EReal := (Finset.univ : Finset (Fin 32000)).fold max ⊥ x

/-- The logarithm of the row's normaliser `∑ exp (x - max x)`. -/
def logNorm (x : Fin 32000 → EReal) : EReal := Ideal.log (∑ k : Fin 32000, Ideal.exp (x k - rowMax x))

/-- The log-softmax of the row at column `k`. -/
def logProb (x : Fin 32000 → EReal) (k : Fin 32000) : EReal := (x k - rowMax x) - logNorm x

/-- The reweighted term from a log-probability `lp`: `(exp (-(p - 1/2)² / 2σ²) - 0.1 p) · lp` with `p = exp lp`. -/
def weighted (lp : EReal) : EReal :=
  (Ideal.exp (Ideal.div (-((Ideal.exp lp - half) * (Ideal.exp lp - half))) twoVarSq) - tenth * Ideal.exp lp) * lp

/-- The column a target word selects: its signed value when that is non-negative, else column `0`. (For a word
    below 32000 as a signed integer the reduction modulo 32000 changes nothing.) -/
def column (w : BitVec 32) : Fin 32000 := ⟨(max w.toInt 0).toNat % 32000, Nat.mod_lt _ (by norm_num)⟩

/-- The row's contribution to the sum: `0` for an ignored row, else the reweighted term at the target's column. -/
def rowTerm (x : Fin 32000 → EReal) (w : BitVec 32) : EReal :=
  if w = ignored then 0 else weighted (logProb x (column w))

/-- The row's contribution to the count of valid rows. -/
def rowValid (w : BitVec 32) : EReal := if w = ignored then 0 else 1

/-- The loss: minus the sum of the rows' terms, over the number of valid rows. -/
def loss (X : Fin 4096 → Fin 32000 → EReal) (tg : Fin 4096 → BitVec 32) : EReal :=
  Ideal.div (-(∑ R : Fin 4096, rowTerm (X R) (tg R))) (∑ R : Fin 4096, rowValid (tg R))

end Cert.GaussNll

end
-- ==== Proof.BlockValue.lean ====
import proofs.«418253_j57552561766415_3_alg».proof.Proof.Gen.KernelIdeal.Skeleton
import proofs.«418253_j57552561766415_3_alg».proof.Proof.RowSpec
import Idealize.ShloMosaic.Lib.ValueIdx
import Idealize.ShloMosaic.Lib.Pipeline.Value
import Idealize.ShloMosaic.PureOps.Ideal.Laws
import Idealize.ShloMosaic.PureOps.IdealRules

/-!
# One grid point's arithmetic of the kernel, on the extended reals

A grid point holds a block of 64 rows of 32000 logits and the 64 target words of those rows. This module reads the
block's arithmetic element by element: the masked per-row term at row `r` is the row's term of the specification
(`masked_apply`): the row maximum folded from `⊥`, the shifted row, the logarithm of the sum of its exponentials, the
shifted entry at the target's column picked by a one-hot lane sum, then the pointwise reweighting, where subtracting
from zero is negating and multiplying by `2^26 / 9917423` is dividing by the float `9917423 / 2^26`. The running
total after the point is the total before it plus the sum of the 64 rows' terms (`sumStep_apply`), and the running
count is the count before it plus the number of rows whose target word is not `-1` (`cntStep_apply`).
-/

noncomputable section

namespace Cert.KernelIdeal.BlockValue

open Idealize.ShloMosaic Idealize.ShloMosaic.ValueIdx Cert.KernelIdeal Cert.KernelIdeal.Gen Cert.GaussNll

/-! ## Layout operations of the column forms, read at an index given by coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index a reduction along the columns inserts coordinate `k` into, over row `r`, is `(r, k)`. -/
theorem lift_row (h : S64x32000.Reduces [1] S64) (r : Fin 64) (k : Fin 32000) :
    h.lift (ix1 r) k = ix2 r k := by
  funext c
  match c with
  | ⟨0, _⟩ => rfl
  | ⟨1, _⟩ => rfl

/-- The index a reduction along the rows of a one-column block inserts coordinate `r` into is `(r, 0)`. -/
theorem lift_col (h : S64x1.Reduces [0] S1) (j : S1.Idx) (r : Fin 64) :
    h.lift j r = ix2 r (0 : Fin 1) := by
  funext c
  match c with
  | ⟨0, _⟩ => rfl
  | ⟨1, _⟩ => exact Fin.ext (by have hj : (j 0).val < 1 := (j 0).isLt; show (j 0).val = 0; omega)

/-- The one index of a `[1, 1]` block. -/
theorem idx11 (i : S1x1.Idx) : i = ix2 (0 : Fin 1) (0 : Fin 1) := by
  funext c
  match c with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-- A sum along the 64 rows of a one-column block, cast to `[1, 1]`, is the sum of the column's entries. -/
theorem colSum_apply (v : FVec Ideal S64x1 .f32) (i : S1x1.Idx) :
    shapeCast S1x1 (multiReduction (F := Ideal) .add [0] S1 v 0x00000000#32 reduces_S64x1_S1 (.inl rfl) rfl) shapeCasts_S1_S1x1 i
      = ∑ r : Fin 64, v (ix2 r 0) := by
  rw [idx11 i]
  refine (shapeCast_a_a1_apply _ _ _ _).trans ?_
  refine (Ideal.multiReduction_add_single v _ reduces_S64x1_S1 _ _ _).trans ?_
  exact Finset.sum_congr rfl fun r _ => congrArg v (lift_col _ _ r)

/-! ## Words: the compare against the column index, and the constants -/

/-- The target word clamped below at zero, as a natural number, is the target's column. -/
theorem maxsi_zero_toNat (w : BitVec 32) (hw : w.toInt < 32000) :
    (IntOp.maxsi w 0#32).toNat = (column w).val := by
  have hc := BitVec.toInt_eq_toNat_cond w
  have hlt := w.isLt
  show (if (0#32).slt w then w else 0#32).toNat = (max w.toInt 0).toNat % 32000
  by_cases h : 0 < w.toInt
  · have hs : (0#32).slt w = true := by simp [BitVec.slt, h]
    rw [hs, if_pos rfl, max_eq_left h.le]
    split at hc <;> omega
  · have hs : (0#32).slt w = false := by simp [BitVec.slt, h]
    rw [hs, if_neg (by decide), max_eq_right (not_lt.mp h)]
    rfl

/-- For a target word below 32000 as a signed integer, the word of column `k` is the clamped target exactly at
    the target's column. -/
theorem onehot_iff (w : BitVec 32) (hw : w.toInt < 32000) (k : Fin 32000) :
    BitVec.ofNat 32 k.val = IntOp.maxsi w 0#32 ↔ k = column w := by
  have hk : (BitVec.ofNat 32 k.val).toNat = k.val := by
    rw [BitVec.toNat_ofNat]; exact Nat.mod_eq_of_lt (by have := k.isLt; omega)
  constructor
  · intro h; exact Fin.ext (by rw [← hk, h, maxsi_zero_toNat w hw])
  · intro h; exact BitVec.eq_of_toNat_eq (by rw [hk, h, maxsi_zero_toNat w hw])

/-- So a select on that compare is the `if` on "column `k` is the target's column". -/
theorem onehot_select (w : BitVec 32) (hw : w.toInt < 32000) (k : Fin 32000) (a b : EReal) :
    Scalar.select (IntOp.cmpi .eq (BitVec.ofNat 32 k.val) (IntOp.maxsi w 0#32)) a b = if k = column w then a else b := by
  by_cases h : k = column w
  · rw [if_pos h, (onehot_iff w hw k).mpr h]
    simp [IntOp.cmpi, Scalar.select]
  · rw [if_neg h]
    have hb : (BitVec.ofNat 32 k.val == IntOp.maxsi w 0#32) = false :=
      beq_eq_false_iff_ne.mpr fun e => h ((onehot_iff w hw k).mp e)
    show (if BitVec.ofBool (BitVec.ofNat 32 k.val == IntOp.maxsi w 0#32) = 1#1 then a else b) = b
    rw [hb]
    exact if_neg (by decide)

/-- The word of minus infinity is `⊥`. -/
theorem ofBits_neg_inf : Ideal.ofBits .f32 0xFF800000#32 = ⊥ := by simp [Ideal.ofBits, Ideal.ieee]

/-- The Gaussian's denominator is the real number `9917423 / 2^26`. -/
theorem twoVarSq_eq : twoVarSq = ((9917423 / 67108864 : ℝ) : EReal) := by
  simp [Ideal.ofBits, Ideal.ieee, -EReal.coe_mul]
  norm_num

/-- Dividing by the Gaussian's denominator is multiplying by its inverse `2^26 / 9917423`. -/
theorem div_twoVarSq (x : EReal) : Ideal.div x twoVarSq = x * ((67108864 / 9917423 : ℝ) : EReal) := by
  rw [twoVarSq_eq, Ideal.div_coe (by norm_num)]
  congr 2
  norm_num

/-! ## The kernel's per-row term, cut into its stages -/

/-- The block's row maxima, as a column. -/
def maxCol (x0 : FVec Ideal S64x32000 .f32) : FVec Ideal S64x1 .f32 :=
  shapeCast S64x1 (multiReduction (F := Ideal) .maximumf [1] S64 x0 0xFF800000#32 reduces_S64x32000_S64 (.inl rfl) rfl)
    shapeCasts_S64_S64x1

/-- The block minus its row maxima. -/
def shifted (x0 : FVec Ideal S64x32000 .f32) : FVec Ideal S64x32000 .f32 :=
  subf x0 (broadcastTo S64x32000 (maxCol x0) broadcasts_S64x1_S64x32000)

/-- The logarithm of each row's normaliser, as a column. -/
def lnormCol (x0 : FVec Ideal S64x32000 .f32) : FVec Ideal S64x1 .f32 :=
  log (shapeCast S64x1
    (multiReduction (F := Ideal) .add [1] S64 (exp (shifted x0)) 0x00000000#32 reduces_S64x32000_S64 (.inl rfl) rfl)
    shapeCasts_S64_S64x1)

/-- Each row's shifted entry at its target's column, picked by a one-hot lane sum, as a column. -/
def pickedCol (x0 : FVec Ideal S64x32000 .f32) (x1 : IVec S64x1 32) : FVec Ideal S64x1 .f32 :=
  shapeCast S64x1
    (multiReduction (F := Ideal) .add [1] S64
      (select
        (cmpi .eq (iota .tc S64x32000 32 [1] iota_S64x32000_d1_w32)
          (broadcastTo S64x32000 (maxsi x1 (broadcast S64x1 0#32)) broadcasts_S64x1_S64x32000))
        (shifted x0) (broadcast S64x32000 (Scalar.ofBits .f32 0x00000000#32 : Ideal .f32)))
      0x00000000#32 reduces_S64x32000_S64 (.inl rfl) rfl)
    shapeCasts_S64_S64x1

/-- The pointwise formula, from the column of log-probabilities. -/
def tailCol (lp : FVec Ideal S64x1 .f32) : FVec Ideal S64x1 .f32 :=
  mulf
    (subf
      (exp (mulf
        (subf (broadcast S64x1 (Scalar.ofBits .f32 0x00000000#32 : Ideal .f32))
          (mulf (subf (exp lp) (broadcast S64x1 (Scalar.ofBits .f32 0x3F000000#32 : Ideal .f32)))
            (subf (exp lp) (broadcast S64x1 (Scalar.ofBits .f32 0x3F000000#32 : Ideal .f32)))))
        (broadcast S64x1 (Named.named (F := Ideal) κ "inv_two_var_sq" (φ := .f32) 0x40D88955#32))))
      (mulf (broadcast S64x1 (Scalar.ofBits .f32 0x3DCCCCCD#32 : Ideal .f32)) (exp lp)))
    lp

/-- The kernel's per-row block is the pointwise formula at picked column minus log-normaliser. -/
theorem pay9_eq (x0 : Vec Ideal S64x32000 .f32) (x1 : Vec Ideal S64x1 .i32) :
    k0_pay9 (F := Ideal) x0 x1 = tailCol (subf (pickedCol x0 (k0_pay7 (F := Ideal) x1)) (lnormCol x0)) := rfl

/-- A vector logarithm at an index is the logarithm of the element … -/
theorem log_at {s : Shape} (v : FVec Ideal s .f32) (i : s.Idx) : log v i = Ideal.log (v i) := rfl
/-- … an exponential the exponential of the element … -/
theorem exp_at {s : Shape} (v : FVec Ideal s .f32) (i : s.Idx) : exp v i = Ideal.exp (v i) := rfl
/-- … an integer compare the compare of the words … -/
theorem cmpi_at {s : Shape} {w : ℕ} (p : CmpIPredicate) (a b : IVec s w) (i : s.Idx) :
    cmpi p a b i = IntOp.cmpi p (a i) (b i) := rfl
/-- … and a signed maximum the signed maximum of the words. -/
theorem maxsi_at {s : Shape} {w : ℕ} (a b : IVec s w) (i : s.Idx) : maxsi a b i = IntOp.maxsi (a i) (b i) := rfl

/-- A row's maximum. -/
theorem maxCol_apply (x0 : FVec Ideal S64x32000 .f32) (r : Fin 64) (u : Fin 1) :
    maxCol x0 (ix2 r u) = rowMax fun k => x0 (ix2 r k) := by
  unfold maxCol
  refine (shapeCast_a_a1_apply _ _ r u).trans ?_
  refine (Ideal.multiReduction_maximumf_single x0 _ reduces_S64x32000_S64 _ _ (ix1 r)).trans ?_
  have hf : (x0 ∘ reduces_S64x32000_S64.lift (ix1 r)) = fun k : Fin 32000 => x0 (ix2 r k) :=
    funext fun k => congrArg x0 (lift_row _ r k)
  rw [hf]
  show Finset.fold max (Ideal.ofBits .f32 0xFF800000#32) _ _ = _
  rw [ofBits_neg_inf]
  rfl

/-- A row minus its maximum. -/
theorem shifted_apply (x0 : FVec Ideal S64x32000 .f32) (r : Fin 64) (k : Fin 32000) :
    shifted x0 (ix2 r k) = x0 (ix2 r k) - rowMax fun k => x0 (ix2 r k) := by
  unfold shifted
  rw [subf_apply, broadcastTo_a1_ab_apply, maxCol_apply]

/-- A row's log-normaliser. -/
theorem lnormCol_apply (x0 : FVec Ideal S64x32000 .f32) (r : Fin 64) (u : Fin 1) :
    lnormCol x0 (ix2 r u) = logNorm fun k => x0 (ix2 r k) := by
  unfold lnormCol logNorm
  rw [log_at]
  refine congrArg Ideal.log ?_
  refine (shapeCast_a_a1_apply _ _ r u).trans ?_
  refine (Ideal.multiReduction_add_single _ _ reduces_S64x32000_S64 _ _ (ix1 r)).trans ?_
  have hterm : ∀ k : Fin 32000, exp (shifted x0) (reduces_S64x32000_S64.lift (ix1 r) k)
      = Ideal.exp (x0 (ix2 r k) - rowMax fun k => x0 (ix2 r k)) := by
    intro k
    rw [lift_row, exp_at, shifted_apply]
  exact Finset.sum_congr rfl fun k _ => hterm k

/-- A row's shifted entry at its target's column. -/
theorem pickedCol_apply (x0 : FVec Ideal S64x32000 .f32) (x1 : IVec S64x1 32) (r : Fin 64) (u : Fin 1)
    (hr : (x1 (ix2 r 0)).toInt < 32000) :
    pickedCol x0 x1 (ix2 r u)
      = x0 (ix2 r (column (x1 (ix2 r 0)))) - rowMax fun k => x0 (ix2 r k) := by
  unfold pickedCol
  refine (shapeCast_a_a1_apply _ _ r u).trans ?_
  refine (Ideal.multiReduction_add_single _ _ reduces_S64x32000_S64 _ _ (ix1 r)).trans ?_
  have hterm : ∀ k : Fin 32000,
      select
        (cmpi .eq (iota .tc S64x32000 32 [1] iota_S64x32000_d1_w32)
          (broadcastTo S64x32000 (maxsi x1 (broadcast S64x1 0#32)) broadcasts_S64x1_S64x32000))
        (shifted x0) (broadcast S64x32000 (Scalar.ofBits .f32 0x00000000#32 : Ideal .f32))
        (reduces_S64x32000_S64.lift (ix1 r) k)
      = if k = column (x1 (ix2 r 0)) then x0 (ix2 r k) - rowMax (fun k => x0 (ix2 r k)) else 0 := by
    intro k
    rw [lift_row, select_apply, broadcast_apply, shifted_apply, cmpi_at, iota_single_apply, broadcastTo_a1_ab_apply,
      maxsi_at, broadcast_apply]
    show Scalar.select (IntOp.cmpi .eq (BitVec.ofNat 32 k.val) (IntOp.maxsi (x1 (ix2 r 0)) 0#32)) _
        (Ideal.ofBits .f32 0x00000000#32) = _
    rw [onehot_select _ hr, Ideal.ofBits_zero_f32]
  refine (Finset.sum_congr rfl fun k _ => hterm k).trans ?_
  exact (Finset.sum_ite_eq' Finset.univ _ _).trans (if_pos (Finset.mem_univ _))

/-- The valid-row count of a target word: the one-bit compare against `-1`, widened and converted, is `1` or `0`. -/
theorem valid_word (w : BitVec 32) :
    ((((IntOp.cmpi .ne w 4294967295#32).setWidth 32).toInt : ℝ) : EReal) = rowValid w := by
  unfold rowValid
  by_cases hw : w = ignored
  · subst hw; rw [if_pos rfl]; simp [IntOp.cmpi]
  · rw [if_neg hw]
    have : (w != 4294967295#32) = true := by simpa using hw
    simp [IntOp.cmpi, this]

/-- The pointwise formula at an index is the reweighted term of the log-probability there: subtracting from zero is
    negating, and multiplying by `2^26 / 9917423` is dividing by the Gaussian's denominator. -/
theorem tailCol_apply (lp : FVec Ideal S64x1 .f32) (i : S64x1.Idx) : tailCol lp i = weighted (lp i) := by
  unfold tailCol weighted
  simp only [mulf_apply, subf_apply, exp_at, broadcast_apply, Ideal.ofBits_def]
  rw [IdealRules.named_const.ideal_named_scalar κ "inv_two_var_sq" _ _ rfl, Ideal.ofBits_zero_f32, div_twoVarSq, zero_sub]

/-- The masked per-row term of the block at row `r` is the specification's term of that row: `0` where the target word
    is `-1`, else the reweighted log-probability at the target's column. -/
theorem masked_apply (x0 : Vec Ideal S64x32000 .f32) (x1 : Vec Ideal S64x1 .i32) (r : Fin 64)
    (hr : (x1 (ix2 r 0)).toInt < 32000) :
    select (k0_pay8 (F := Ideal) x1) (k0_pay9 (F := Ideal) x0 x1) (k0_pay10 (F := Ideal)) (ix2 r 0)
      = rowTerm (fun k => x0 (ix2 r k)) (x1 (ix2 r 0)) := by
  have hw7 : k0_pay7 (F := Ideal) x1 = x1 := shapeCast_self _ _
  rw [select_apply, pay9_eq, tailCol_apply, subf_apply, hw7, pickedCol_apply x0 x1 r 0 hr, lnormCol_apply]
  unfold k0_pay8 k0_pay10 rowTerm
  rw [hw7, cmpi_at, broadcast_apply, broadcast_apply]
  by_cases hw : x1 (ix2 r 0) = ignored
  · rw [if_pos hw, hw]
    show Scalar.select (IntOp.cmpi .ne ignored 4294967295#32) _ (Ideal.ofBits .f32 0x00000000#32) = 0
    rw [Ideal.ofBits_zero_f32]
    exact if_neg (by decide)
  · rw [if_neg hw]
    have hb : (x1 (ix2 r 0) != 4294967295#32) = true := by simpa using hw
    show Scalar.select (BitVec.ofBool (x1 (ix2 r 0) != 4294967295#32)) _ _ = _
    rw [hb]
    exact if_pos rfl

/-- The running total after the point: the total before it plus the sum of the 64 rows' terms. -/
theorem sumStep_apply (x0 : Vec Ideal S64x32000 .f32) (x1 : Vec Ideal S64x1 .i32) (acc : Vec Ideal S1x1 .f32)
    (hr : ∀ r : Fin 64, (x1 (ix2 r 0)).toInt < 32000) (i : S1x1.Idx) :
    k0_pay1 (F := Ideal) (k0_pay8 (F := Ideal) x1) (k0_pay9 (F := Ideal) x0 x1) (k0_pay10 (F := Ideal)) acc i
      = acc i + ∑ r : Fin 64, rowTerm (fun k => x0 (ix2 r k)) (x1 (ix2 r 0)) := by
  unfold k0_pay1
  rw [shapeCast_self, addf_apply, colSum_apply]
  exact congrArg (acc i + ·) (Finset.sum_congr rfl fun r _ => masked_apply x0 x1 r (hr r))

/-- The running count after the point: the count before it plus the number of valid rows of the block. -/
theorem cntStep_apply (x1 : Vec Ideal S64x1 .i32) (acc : Vec Ideal S1x1 .f32) (i : S1x1.Idx) :
    k0_pay2 (F := Ideal) (k0_pay8 (F := Ideal) x1) acc i = acc i + ∑ r : Fin 64, rowValid (x1 (ix2 r 0)) := by
  unfold k0_pay2
  rw [shapeCast_self, addf_apply, colSum_apply]
  refine congrArg (acc i + ·) (Finset.sum_congr rfl fun r _ => ?_)
  unfold k0_pay8 k0_pay7
  rw [shapeCast_self]
  exact valid_word (x1 (ix2 r 0))

end Cert.KernelIdeal.BlockValue

end
-- ==== Proof.BlockRead.lean ====
import proofs.«418253_j57552561766415_3_alg».proof.Proof.Gen.KernelIdeal.Frame
import Idealize.ShloMosaic.Lib.ValueIdx
import Idealize.ShloMosaic.Lib.Pipeline.Value
import Idealize.ShloMosaic.Lib.StableHlo.Run

/-!
# What the kernel's two input windows hold at a grid point

The grid is 2 x 32, walked row-major, so its 64 points are numbered `t = 32 c + j`. At point `t` the
logits window holds the 64 rows `64 t, …, 64 t + 63` of the `4096 x 32000` logits array, all 32000 columns
(`xblk_apply`), and the targets window holds the same 64 rows of the targets read as a `4096 x 1` column
(`tblk_apply`). That column is the flat array of 4096 target words reshaped, and a row-major reshape of a
vector of length `n` to `n x 1` keeps entry `R` at `(R, 0)`; so the window's entry `(r, 0)` is target word
`64 t + r`. Both facts hold for every float family: no float is computed, only positions are compared.
-/

noncomputable section

namespace Cert.KernelIdeal.BlockRead

open Idealize.ShloMosaic Idealize.ShloMosaic.ValueIdx Idealize.ShloMosaic.TcCoe Idealize.SL.Sem Cert.KernelIdeal Cert.KernelIdeal.Gen

variable {F : FTy → Type} [FloatOps F] [Named F]
variable (m : (ℓ : Loc nD τ sig) → Buf (Elt F) ℓ)

/-- The logits window's block index at point `t` is `(t, 0)`: the index map sends grid coordinates `(c, j)` to
    `(32 c + j, 0)`, and `32 c + j` is the point's row-major number. Decided over the 64 points. -/
theorem logitsIndex : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The targets window's block index at point `t` is `(t, 0)` as well: its index map is the same. -/
theorem targetsIndex : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(r, k)` of the logits block at point `t` is entry `(64 t + r, k)` of the logits array as launched:
    nothing writes that array before the kernel, and a block's coordinate on an axis is the block index times the
    block's extent plus the coordinate inside the block, here `t · 64 + r` and `0 · 32000 + k`. -/
theorem xblk_apply (c : Dev nD) (t : Fin cfg0.N) (r : Fin 64) (k : Fin 32000) (h : 64 * t.val + r.val < 4096) :
    (iblk m c 0 t : Vec F S64x32000 .f32) (ix2 r k)
      = (m ((c : Thread nD τ).loc main_arg0) : Vec F S4096x32000 .f32) (ix2 ⟨64 * t.val + r.val, h⟩ k) := by
  unfold iblk
  rw [View.read_apply]
  show V m c main_arg0 _ = m (c.tc.loc main_arg0) _
  rw [show (V m c main_arg0 : Vec F S4096x32000 .f32) = m (c.tc.loc main_arg0) from V_main_arg0 m c]
  refine congrArg _ (funext fun a => Fin.ext ?_)
  match a with
  | ⟨0, _⟩ =>
    show win0_0.index t 0 * 64 + 1 * r.val = 64 * t.val + r.val
    rw [(logitsIndex t).1]; omega
  | ⟨1, _⟩ =>
    show win0_0.index t 1 * 32000 + 1 * k.val = k.val
    rw [(logitsIndex t).2]; omega

/-- Entry `(r, 0)` of the targets block at point `t` is target word `64 t + r` of the flat targets as launched:
    the window reads the `4096 x 1` reshape of the flat array at `(t · 64 + r, 0 · 1 + 0)`, whose row-major position
    `(64 t + r) · 1 + 0` is the flat position `64 t + r`. -/
theorem tblk_apply (c : Dev nD) (t : Fin cfg0.N) (r : Fin 64) (h : 64 * t.val + r.val < 4096) :
    (iblk m c 1 t : Vec F S64x1 .i32) (ix2 r 0)
      = (m ((c : Thread nD τ).loc main_arg1) : Vec F S4096 .i32) (ix1 ⟨64 * t.val + r.val, h⟩) := by
  unfold iblk
  rw [View.read_apply]
  show V m c main_v0 _ = _
  -- the column the kernel reads is the reshape of the flat targets
  have e : (V m c main_v0 : Vec F S4096x1 .i32)
      = shapeCast S4096x1 (m (c.tc.loc main_arg1) : Vec F S4096 .i32) shapeCasts_S4096_S4096x1 := by
    show StableHlo.after hostOps0 (fun b => m (c, b)) (Proc.devRef .tc main_v0) = _
    after_results
    rfl
  rw [e]
  -- a reshape read at an index is the operand at the index with the same row-major position
  refine shapeCast_apply _ _ _ _ ?_
  show (S4096.rowMajor (ix1 ⟨64 * t.val + r.val, h⟩)).val
      = (S4096x1.rowMajor (((cfg0.win 1).blk t).view.emb (ix2 r 0))).val
  rw [Shape.rowMajor_val_one, Shape.rowMajor_val_two]
  show 64 * t.val + r.val = (win0_1.index t 0 * 64 + 1 * r.val) * 1 + (win0_1.index t 1 * 1 + 1 * 0)
  rw [(targetsIndex t).1, (targetsIndex t).2]; omega

end Cert.KernelIdeal.BlockRead

end
-- ==== Proof.Totals.lean ====
import proofs.«418253_j57552561766415_3_alg».proof.Proof.Gen.KernelIdeal.Frame
import proofs.«418253_j57552561766415_3_alg».proof.Proof.ScratchPieces
import proofs.«418253_j57552561766415_3_alg».proof.Proof.BlockValue
import proofs.«418253_j57552561766415_3_alg».proof.Proof.BlockRead
import proofs.«418253_j57552561766415_3_alg».proof.Proof.RowSpec
import Idealize.ShloMosaic.Lib.Pipeline.Value
import Idealize.ShloMosaic.Lib.ValueIdx

/-!
# The two running totals of the kernel, point by point

Grid point `n` (of 64: two runs of 32) handles rows `64 n … 64 n + 63`. The sum total after point `n` is, within a
run, zero plus the block sums of the run's points up to `n`; likewise the count total. At the last point of each run
the totals are what the two outputs receive.
-/

noncomputable section

namespace Cert.KernelIdeal.Totals

open Idealize.ShloMosaic Idealize.ShloMosaic.ValueIdx Idealize.ShloMosaic.TcCoe Idealize.SL.Sem
open Cert.KernelIdeal Cert.KernelIdeal.Gen Cert.GaussNll
open Idealize.ShloMosaic.Pipeline (Dat)

variable (m : (ℓ : Loc nD τ sig) → Buf (Elt Ideal) ℓ)

/-- Row `R` of the logits. -/
abbrev logits (c : Dev nD) (R : Fin 4096) : Fin 32000 → EReal :=
  fun k => (m ((c : Thread nD τ).loc main_arg0) : Vec Ideal S4096x32000 .f32) (ix2 R k)
/-- Row `R`'s target word. -/
abbrev target (c : Dev nD) (R : Fin 4096) : BitVec 32 :=
  (m ((c : Thread nD τ).loc main_arg1) : Vec Ideal S4096 .i32) (ix1 R)

/-- Row `n`'s term of the sum (zero past the last row). -/
def term (c : Dev nD) (n : ℕ) : EReal := if h : n < 4096 then rowTerm (logits m c ⟨n, h⟩) (target m c ⟨n, h⟩) else 0
/-- Row `n`'s term of the count (zero past the last row). -/
def valid (c : Dev nD) (n : ℕ) : EReal := if h : n < 4096 then rowValid (target m c ⟨n, h⟩) else 0

/-- The sum of the terms of block `n`'s 64 rows. -/
def blockSum (c : Dev nD) (n : ℕ) (_ : S1x1.Idx) : EReal := ∑ r : Fin 64, term m c (64 * n + r.val)
/-- The number of valid rows among block `n`'s 64 rows. -/
def blockCnt (c : Dev nD) (n : ℕ) (_ : S1x1.Idx) : EReal := ∑ r : Fin 64, valid m c (64 * n + r.val)

theorem npts : cfg0.N = 64 := N_0

/-- The zero the sum total is reset to. -/
theorem zeroSum_apply (i : S1x1.Idx) : (k0_pay5 (F := Ideal)) i = 0 := by
  simp [k0_pay5, shapeCast_self, broadcast, Scalar.ofBits, Ideal.ofBits_zero_f32]
/-- The zero the count total is reset to. -/
theorem zeroCnt_apply (i : S1x1.Idx) : (k0_pay6 (F := Ideal)) i = 0 := by
  simp [k0_pay6, shapeCast_self, broadcast, Scalar.ofBits, Ideal.ofBits_zero_f32]

/-- The count step of point `t`: the total gains the number of valid rows of block `t`. -/
theorem cntStep (c : Dev nD) (t : Fin cfg0.N) (acc : Vec Ideal S1x1 .f32) (i : S1x1.Idx) :
    k0_pay2 (F := Ideal) (k0_pay8 (F := Ideal) (iblk m c 1 t)) acc i = acc i + blockCnt m c t.val i := by
  have ht : t.val < 64 := lt_of_lt_of_eq t.isLt npts
  have hrow : ∀ r : Fin 64, 64 * t.val + r.val < 4096 := fun r => by have := r.isLt; omega
  refine (BlockValue.cntStep_apply (iblk m c 1 t) acc i).trans ?_
  refine congrArg (acc i + ·) (Finset.sum_congr rfl fun r _ => ?_)
  unfold valid
  rw [dif_pos (hrow r), BlockRead.tblk_apply m c t r (hrow r)]

section InRange

variable (hlt : ∀ (c : Dev nD) (R : Fin 4096), (target m c R).toInt < 32000)
include hlt

/-- The sum step of point `t`: the total gains the sum of the terms of block `t`'s rows. -/
theorem sumStep (c : Dev nD) (t : Fin cfg0.N) (acc : Vec Ideal S1x1 .f32) (i : S1x1.Idx) :
    k0_pay1 (F := Ideal) (k0_pay8 (F := Ideal) (iblk m c 1 t)) (k0_pay9 (F := Ideal) (iblk m c 0 t) (iblk m c 1 t))
        (k0_pay10 (F := Ideal)) acc i
      = acc i + blockSum m c t.val i := by
  have ht : t.val < 64 := lt_of_lt_of_eq t.isLt npts
  have hrow : ∀ r : Fin 64, 64 * t.val + r.val < 4096 := fun r => by have := r.isLt; omega
  have hr : ∀ r : Fin 64, ((iblk m c 1 t : Vec Ideal S64x1 .i32) (ix2 r 0)).toInt < 32000 := fun r => by
    rw [BlockRead.tblk_apply m c t r (hrow r)]; exact hlt c ⟨_, hrow r⟩
  refine (BlockValue.sumStep_apply (iblk m c 0 t) (iblk m c 1 t) acc hr i).trans ?_
  refine congrArg (acc i + ·) (Finset.sum_congr rfl fun r _ => ?_)
  unfold term
  rw [dif_pos (hrow r), BlockRead.tblk_apply m c t r (hrow r)]
  refine congrArg (fun x => rowTerm x _) (funext fun k => ?_)
  exact BlockRead.xblk_apply m c t r k (hrow r)

end InRange

/-! ## The totals as folds over a run -/

/-- The sum total after the first point `n` of a run. -/
def sumA (c : Dev nD) (n : ℕ) (h : n < cfg0.N) : Vec Ideal S1x1 .f32 :=
  k0_pay1 (F := Ideal) (k0_pay8 (F := Ideal) (iblk m c 1 ⟨n, h⟩)) (k0_pay9 (F := Ideal) (iblk m c 0 ⟨n, h⟩) (iblk m c 1 ⟨n, h⟩))
    (k0_pay10 (F := Ideal)) (k0_pay5 (F := Ideal))
/-- The sum total after a later point `n`, from what the point before left. -/
def sumG (c : Dev nD) (n : ℕ) (h : n < cfg0.N) (acc : Vec Ideal S1x1 .f32) : Vec Ideal S1x1 .f32 :=
  k0_pay1 (F := Ideal) (k0_pay8 (F := Ideal) (iblk m c 1 ⟨n, h⟩)) (k0_pay9 (F := Ideal) (iblk m c 0 ⟨n, h⟩) (iblk m c 1 ⟨n, h⟩))
    (k0_pay10 (F := Ideal)) acc
/-- The count total after the first point `n` of a run. -/
def cntA (c : Dev nD) (n : ℕ) (h : n < cfg0.N) : Vec Ideal S1x1 .f32 :=
  k0_pay2 (F := Ideal) (k0_pay8 (F := Ideal) (iblk m c 1 ⟨n, h⟩)) (k0_pay6 (F := Ideal))
/-- The count total after a later point `n`, from what the point before left. -/
def cntG (c : Dev nD) (n : ℕ) (h : n < cfg0.N) (acc : Vec Ideal S1x1 .f32) : Vec Ideal S1x1 .f32 :=
  k0_pay2 (F := Ideal) (k0_pay8 (F := Ideal) (iblk m c 1 ⟨n, h⟩)) acc

theorem sum_reset (c : Dev nD) (n : ℕ) (h : n < cfg0.N) (h0 : n % 32 = 0) :
    (outsAt0 m c n h).2.2.1 = sumA m c n h := by
  have h1 : ¬n % 32 = 31 := by omega
  rw [outsAt0_A m c ⟨n, h⟩ h0 h1]
  dsimp only
  exact Pieces.sum_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)

theorem cnt_reset (c : Dev nD) (n : ℕ) (h : n < cfg0.N) (h0 : n % 32 = 0) :
    (outsAt0 m c n h).2.2.2 = cntA m c n h := by
  have h1 : ¬n % 32 = 31 := by omega
  rw [outsAt0_A m c ⟨n, h⟩ h0 h1]
  dsimp only
  exact Pieces.cnt_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)

theorem sum_step (c : Dev nD) (n : ℕ) (h : n + 1 < cfg0.N) (h0 : ¬(n + 1) % 32 = 0) :
    (outsAt0 m c (n + 1) h).2.2.1 = sumG m c (n + 1) h ((outsAt0 m c n (Nat.lt_of_succ_lt h)).2.2.1) := by
  by_cases h1 : (n + 1) % 32 = 31
  · rw [outsAt0_C m c ⟨n + 1, h⟩ h0 h1]
    dsimp only
    exact Pieces.sum_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2
  · rw [outsAt0_B m c ⟨n + 1, h⟩ h0 h1]
    dsimp only
    exact Pieces.sum_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2

theorem cnt_step (c : Dev nD) (n : ℕ) (h : n + 1 < cfg0.N) (h0 : ¬(n + 1) % 32 = 0) :
    (outsAt0 m c (n + 1) h).2.2.2 = cntG m c (n + 1) h ((outsAt0 m c n (Nat.lt_of_succ_lt h)).2.2.2) := by
  by_cases h1 : (n + 1) % 32 = 31
  · rw [outsAt0_C m c ⟨n + 1, h⟩ h0 h1]
    dsimp only
    exact Pieces.cnt_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2
  · rw [outsAt0_B m c ⟨n + 1, h⟩ h0 h1]
    dsimp only
    exact Pieces.cnt_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2

/-! ## The totals at the last point of a run -/

/-- The one index of a one-element block. -/
theorem idx11 (a : S1x1.Idx) : a = ix2 0 0 := by
  funext d
  apply Fin.ext
  match d with
  | ⟨0, _⟩ => have h : (a 0).val < 1 := (a 0).isLt; show (a 0).val = 0; omega
  | ⟨1, _⟩ => have h : (a 1).val < 1 := (a 1).isLt; show (a 1).val = 0; omega

/-- The count total at the last point of a run: zero plus the counts of the run's 32 blocks. -/
theorem cnt_at_last (c : Dev nD) (t : Fin cfg0.N) (h1 : t.val % 32 = 31) (i : S1x1.Idx) :
    (outsAt0 m c t.val t.isLt).2.2.2 i = 0 + ∑ s ∈ Finset.range 32, blockCnt m c (32 * (t.val / 32) + s) i := by
  have h' : 32 * (t.val / 32) + t.val % 32 < cfg0.N := by rw [Nat.div_add_mod]; exact t.isLt
  have e := Pipeline.eq_accAt_of_mod (fun n h => (outsAt0 m c n h).2.2.2) 32 (cntA m c) (cntG m c)
    (fun n h h0 => cnt_reset m c n h h0) (fun n h h0 => cnt_step m c n h h0) (by norm_num) t.val t.isLt h'
  have key : ∀ (j : ℕ) (hj : j = 31) (h'' : 32 * (t.val / 32) + j < cfg0.N),
      Pipeline.accAt (cntA m c) (cntG m c) (32 * (t.val / 32)) j h'' i
        = 0 + ∑ s ∈ Finset.range 32, blockCnt m c (32 * (t.val / 32) + s) i := by
    intro j hj h''
    subst hj
    exact Pipeline.accAt_add_apply (cntA m c) (cntG m c) (fun _ => 0) (blockCnt m c) (32 * (t.val / 32)) 31
      (fun hb i => by unfold cntA; rw [cntStep m c ⟨32 * (t.val / 32), hb⟩ (k0_pay6 (F := Ideal)) i, zeroCnt_apply])
      (fun n h acc i _ _ => by unfold cntG; exact cntStep m c ⟨n, h⟩ acc i) 31 le_rfl h'' i
  exact (congrFun e i).trans (key (t.val % 32) h1 h')

section InRange

variable (hlt : ∀ (c : Dev nD) (R : Fin 4096), (target m c R).toInt < 32000)
include hlt

/-- The sum total at the last point of a run: zero plus the sums of the run's 32 blocks. -/
theorem sum_at_last (c : Dev nD) (t : Fin cfg0.N) (h1 : t.val % 32 = 31) (i : S1x1.Idx) :
    (outsAt0 m c t.val t.isLt).2.2.1 i = 0 + ∑ s ∈ Finset.range 32, blockSum m c (32 * (t.val / 32) + s) i := by
  have h' : 32 * (t.val / 32) + t.val % 32 < cfg0.N := by rw [Nat.div_add_mod]; exact t.isLt
  have e := Pipeline.eq_accAt_of_mod (fun n h => (outsAt0 m c n h).2.2.1) 32 (sumA m c) (sumG m c)
    (fun n h h0 => sum_reset m c n h h0) (fun n h h0 => sum_step m c n h h0) (by norm_num) t.val t.isLt h'
  have key : ∀ (j : ℕ) (hj : j = 31) (h'' : 32 * (t.val / 32) + j < cfg0.N),
      Pipeline.accAt (sumA m c) (sumG m c) (32 * (t.val / 32)) j h'' i
        = 0 + ∑ s ∈ Finset.range 32, blockSum m c (32 * (t.val / 32) + s) i := by
    intro j hj h''
    subst hj
    exact Pipeline.accAt_add_apply (sumA m c) (sumG m c) (fun _ => 0) (blockSum m c) (32 * (t.val / 32)) 31
      (fun hb i => by unfold sumA; rw [sumStep m hlt c ⟨32 * (t.val / 32), hb⟩ (k0_pay5 (F := Ideal)) i, zeroSum_apply])
      (fun n h acc i _ _ => by unfold sumG; exact sumStep m hlt c ⟨n, h⟩ acc i) 31 le_rfl h'' i
  exact (congrFun e i).trans (key (t.val % 32) h1 h')

end InRange

/-! ## The outputs at the last point of a run -/

/-- Re-shaping a one-element block to rank 3 keeps its element. -/
theorem pay3_apply (v : Vec Ideal S1x1 .f32) (j : S1x1x1.Idx) (i : S1x1.Idx) : k0_pay3 (F := Ideal) v j = v i := by
  unfold k0_pay3 shapeCast
  exact congrArg v ((idx11 _).trans (idx11 i).symm)
theorem pay4_apply (v : Vec Ideal S1x1 .f32) (j : S1x1x1.Idx) (i : S1x1.Idx) : k0_pay4 (F := Ideal) v j = v i := by
  unfold k0_pay4 shapeCast
  exact congrArg v ((idx11 _).trans (idx11 i).symm)

/-- At the last point of a run the first output holds the sum total. -/
theorem outSum_at_last (c : Dev nD) (t : Fin cfg0.N) (h1 : t.val % 32 = 31) (j : S1x1x1.Idx) (i : S1x1.Idx) :
    (outsAt0 m c t.val t.isLt).1 j = (outsAt0 m c t.val t.isLt).2.2.1 i := by
  have h0 : ¬t.val % 32 = 0 := by omega
  rw [outsAt0_C m c t h0 h1]
  dsimp only
  refine (congrFun (Pieces.outSum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  refine Eq.trans ?_ (congrFun (Pieces.sum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) i).symm
  exact pay3_apply _ j i

/-- At the last point of a run the second output holds the count total. -/
theorem outCnt_at_last (c : Dev nD) (t : Fin cfg0.N) (h1 : t.val % 32 = 31) (j : S1x1x1.Idx) (i : S1x1.Idx) :
    (outsAt0 m c t.val t.isLt).2.1 j = (outsAt0 m c t.val t.isLt).2.2.2 i := by
  have h0 : ¬t.val % 32 = 0 := by omega
  rw [outsAt0_C m c t h0 h1]
  dsimp only
  refine (congrFun (Pieces.outCnt_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  refine Eq.trans ?_ (congrFun (Pieces.cnt_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) i).symm
  exact pay4_apply _ j i

end Cert.KernelIdeal.Totals

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.KernelValue.lean ====
import proofs.«418253_j57552561766415_3_alg».proof.Proof.Totals
import proofs.«418253_j57552561766415_3_alg».proof.Proof.LibTile
import proofs.«418253_j57552561766415_3_alg».proof.Proof.RowSpec
import Idealize.ShloMosaic.Lib.Pipeline.Value
import Idealize.ShloMosaic.Lib.StableHlo.Run
import Idealize.ShloMosaic.PureOps.Ideal.Laws
import Idealize.ShloMosaic.Lib.ValueIdx

/-!
# The kernel computes the loss

After the region each of the two output arrays has two entries, one per run of 32 grid points: the run's sum total
and its count total. The host then adds the two entries of each, negates the sum and divides by the count. The sum
over the two runs of the 32 block sums of 64 rows each is the sum over all 4096 rows, so the result is the loss.
-/

noncomputable section

namespace Cert.KernelIdeal.Result

open Idealize.ShloMosaic Idealize.ShloMosaic.ValueIdx Idealize.ShloMosaic.TcCoe Idealize.SL.Sem
open Cert.KernelIdeal Cert.KernelIdeal.Gen Cert.GaussNll Cert.KernelIdeal.Totals
open Idealize.ShloMosaic.Pipeline (Dat)

variable (m : (ℓ : Loc nD τ sig) → Buf (Elt Ideal) ℓ) (ρ : Dev nD → PrngReg)

/-! ## Regrouping the rows -/

/-- Two runs of 32 blocks of 64 rows are the 4096 rows. -/
theorem regroup (f : ℕ → EReal) :
    (0 : EReal) + ∑ q : Fin 2, ((0 : EReal) + ∑ s ∈ Finset.range 32, ∑ r : Fin 64, f (64 * (32 * q.val + s) + r.val))
      = ∑ R : Fin 4096, f R.val := by
  simp only [zero_add]
  rw [← Cert.Hand.LibTile.sum_tiles (m := 64) (n := 64) rfl (fun R : Fin 4096 => f R.val),
    ← Cert.Hand.LibTile.sum_tiles (m := 2) (n := 32) rfl (fun n : Fin 64 => ∑ r : Fin 64, f (64 * n.val + r.val))]
  refine Finset.sum_congr rfl fun q _ => ?_
  rw [Finset.sum_range]

/-- An index of the two-entry output arrays is its first coordinate. -/
def idxEquiv211 : S2x1x1.Idx ≃ Fin 2 where
  toFun j := j 0
  invFun q := ix3 q 0 0
  left_inv j := by
    funext d
    apply Fin.ext
    match d with
    | ⟨0, _⟩ => rfl
    | ⟨1, _⟩ => have h : (j 1).val < 1 := (j 1).isLt; show 0 = (j 1).val; omega
    | ⟨2, _⟩ => have h : (j 2).val < 1 := (j 2).isLt; show 0 = (j 2).val; omega
  right_inv _ := rfl

/-! ## The two output arrays after the region -/

/-- Entry `q` of the sum output: zero plus the block sums of run `q`. -/
def sumFn (c : Dev nD) (i : S2x1x1.Idx) : EReal := 0 + ∑ s ∈ Finset.range 32, blockSum m c (32 * (i 0).val + s) (ix2 0 0)
/-- Entry `q` of the count output: zero plus the block counts of run `q`. -/
def cntFn (c : Dev nD) (i : S2x1x1.Idx) : EReal := 0 + ∑ s ∈ Finset.range 32, blockCnt m c (32 * (i 0).val + s) (ix2 0 0)
/-- What the sum output holds. -/
def sumArr (c : Dev nD) : Buf (Elt Ideal) ((c : Thread nD τ).loc main_v1_0) := sumFn m c
/-- What the count output holds. -/
def cntArr (c : Dev nD) : Buf (Elt Ideal) ((c : Thread nD τ).loc main_v1_1) := cntFn m c

/-- The two outputs' block index at point `t` is `(t / 32, 0, 0)`: one entry per run. Decided over the 64 points. -/
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)
/-- Their blocks are whole: one element on every axis. -/
theorem xs2 : ∀ t : Fin cfg0.N, win0_2.xsize (grid0.coords t) (0 : Fin 3) = 1 ∧ win0_2.xsize (grid0.coords t) (1 : Fin 3) = 1 ∧ win0_2.xsize (grid0.coords t) (2 : Fin 3) = 1 :=
  (by decide +kernel : ∀ t : Fin grid0.N, win0_2.xsize (grid0.coords t) (0 : Fin 3) = 1 ∧ win0_2.xsize (grid0.coords t) (1 : Fin 3) = 1 ∧ win0_2.xsize (grid0.coords t) (2 : Fin 3) = 1)
theorem xs3 : ∀ t : Fin cfg0.N, win0_3.xsize (grid0.coords t) (0 : Fin 3) = 1 ∧ win0_3.xsize (grid0.coords t) (1 : Fin 3) = 1 ∧ win0_3.xsize (grid0.coords t) (2 : Fin 3) = 1 :=
  (by decide +kernel : ∀ t : Fin grid0.N, win0_3.xsize (grid0.coords t) (0 : Fin 3) = 1 ∧ win0_3.xsize (grid0.coords t) (1 : Fin 3) = 1 ∧ win0_3.xsize (grid0.coords t) (2 : Fin 3) = 1)

/-- What the write-back at the last point of a run writes into the count output is that run's entry. -/
theorem flushedCnt_eq (c : Dev nD) (t : Fin cfg0.N) (hf : (cfg0.win 3).flush t = true) :
    (dats m 0 c).flushed 3 t = ((cfg0.win 3).blk t).view.read (Elt Ideal) (cntArr m c) := by
  have h1 : t.val % 32 = 31 := (flush0_3 t).mp hf
  funext y
  show (cfg0.win 3).cut (grid0.coords t) ((dats m 0 c).after 3 t) y = _
  rw [after0_3, View.read_apply]
  show (outsAt0 m c t.val t.isLt).2.1 _ = cntArr m c (((cfg0.win 3).blk t).view.emb y)
  rw [outCnt_at_last m c t h1 _ (ix2 0 0), cnt_at_last m c t h1 (ix2 0 0)]
  unfold cntArr cntFn
  have hy : (y 0).val < 1 := lt_of_lt_of_eq (y 0).isLt (xs3 t).1
  have hi : ((((cfg0.win 3).blk t).view.emb y) 0).val = t.val / 32 := by
    show win0_3.index t 0 * 1 + 1 * (y 0).val = t.val / 32
    rw [(idx3 t).1]; omega
  show _ = 0 + ∑ s ∈ Finset.range 32, _
  rw [hi]

/-- The count output after the region. -/
theorem finalCnt (c : Dev nD) : (dats m 0 c).arrAt 3 cfg0.N = cntArr m c :=
  (dats m 0 c).arrAt_eq_of_cover 3 (cntArr m c) (flushedCnt_eq m c) fun i => by
    have hi0 : (i 0 : Nat) < 2 := (i 0).isLt
    have hi1 : (i 1 : Nat) < 1 := (i 1).isLt
    have hi2 : (i 2 : Nat) < 1 := (i 2).isLt
    have hN : 32 * (i 0 : Nat) + 31 < cfg0.N := by rw [npts]; omega
    refine ⟨⟨32 * (i 0 : Nat) + 31, hN⟩, (flush0_3 _).mpr (by show (32 * (i 0 : Nat) + 31) % 32 = 31; omega), ?_⟩
    show i ∈ ((View.whole main_v1_1).slice (win0_3.rect ⟨32 * (i 0 : Nat) + 31, hN⟩)).set
    rw [View.set_slice_whole, Rect.mem_set_unit]
    intro a
    match a with
    | ⟨0, _⟩ =>
      show win0_3.index ⟨32 * (i 0 : Nat) + 31, hN⟩ 0 * 1 ≤ (i 0 : Nat)
        ∧ (i 0 : Nat) < win0_3.index ⟨32 * (i 0 : Nat) + 31, hN⟩ 0 * 1 + win0_3.xsize (grid0.coords ⟨32 * (i 0 : Nat) + 31, hN⟩) 0
      rw [(idx3 ⟨32 * (i 0 : Nat) + 31, hN⟩).1, (xs3 ⟨32 * (i 0 : Nat) + 31, hN⟩).1]
      show (32 * (i 0 : Nat) + 31) / 32 * 1 ≤ (i 0 : Nat) ∧ (i 0 : Nat) < (32 * (i 0 : Nat) + 31) / 32 * 1 + 1
      omega
    | ⟨1, _⟩ =>
      show win0_3.index ⟨32 * (i 0 : Nat) + 31, hN⟩ 1 * 1 ≤ (i 1 : Nat)
        ∧ (i 1 : Nat) < win0_3.index ⟨32 * (i 0 : Nat) + 31, hN⟩ 1 * 1 + win0_3.xsize (grid0.coords ⟨32 * (i 0 : Nat) + 31, hN⟩) 1
      rw [(idx3 ⟨32 * (i 0 : Nat) + 31, hN⟩).2.1, (xs3 ⟨32 * (i 0 : Nat) + 31, hN⟩).2.1]
      omega
    | ⟨2, _⟩ =>
      show win0_3.index ⟨32 * (i 0 : Nat) + 31, hN⟩ 2 * 1 ≤ (i 2 : Nat)
        ∧ (i 2 : Nat) < win0_3.index ⟨32 * (i 0 : Nat) + 31, hN⟩ 2 * 1 + win0_3.xsize (grid0.coords ⟨32 * (i 0 : Nat) + 31, hN⟩) 2
      rw [(idx3 ⟨32 * (i 0 : Nat) + 31, hN⟩).2.2, (xs3 ⟨32 * (i 0 : Nat) + 31, hN⟩).2.2]
      omega

section InRange

variable (hlt : ∀ (c : Dev nD) (R : Fin 4096), (target m c R).toInt < 32000)
include hlt

/-- What the write-back at the last point of a run writes into the sum output is that run's entry. -/
theorem flushedSum_eq (c : Dev nD) (t : Fin cfg0.N) (hf : (cfg0.win 2).flush t = true) :
    (dats m 0 c).flushed 2 t = ((cfg0.win 2).blk t).view.read (Elt Ideal) (sumArr m c) := by
  have h1 : t.val % 32 = 31 := (flush0_2 t).mp hf
  funext y
  show (cfg0.win 2).cut (grid0.coords t) ((dats m 0 c).after 2 t) y = _
  rw [after0_2, View.read_apply]
  show (outsAt0 m c t.val t.isLt).1 _ = sumArr m c (((cfg0.win 2).blk t).view.emb y)
  rw [outSum_at_last m c t h1 _ (ix2 0 0), sum_at_last m hlt c t h1 (ix2 0 0)]
  unfold sumArr sumFn
  have hy : (y 0).val < 1 := lt_of_lt_of_eq (y 0).isLt (xs2 t).1
  have hi : ((((cfg0.win 2).blk t).view.emb y) 0).val = t.val / 32 := by
    show win0_2.index t 0 * 1 + 1 * (y 0).val = t.val / 32
    rw [(idx2 t).1]; omega
  show _ = 0 + ∑ s ∈ Finset.range 32, _
  rw [hi]

/-- The sum output after the region. -/
theorem finalSum (c : Dev nD) : (dats m 0 c).arrAt 2 cfg0.N = sumArr m c :=
  (dats m 0 c).arrAt_eq_of_cover 2 (sumArr m c) (flushedSum_eq m hlt c) fun i => by
    have hi0 : (i 0 : Nat) < 2 := (i 0).isLt
    have hi1 : (i 1 : Nat) < 1 := (i 1).isLt
    have hi2 : (i 2 : Nat) < 1 := (i 2).isLt
    have hN : 32 * (i 0 : Nat) + 31 < cfg0.N := by rw [npts]; omega
    refine ⟨⟨32 * (i 0 : Nat) + 31, hN⟩, (flush0_2 _).mpr (by show (32 * (i 0 : Nat) + 31) % 32 = 31; omega), ?_⟩
    show i ∈ ((View.whole main_v1_0).slice (win0_2.rect ⟨32 * (i 0 : Nat) + 31, hN⟩)).set
    rw [View.set_slice_whole, Rect.mem_set_unit]
    intro a
    match a with
    | ⟨0, _⟩ =>
      show win0_2.index ⟨32 * (i 0 : Nat) + 31, hN⟩ 0 * 1 ≤ (i 0 : Nat)
        ∧ (i 0 : Nat) < win0_2.index ⟨32 * (i 0 : Nat) + 31, hN⟩ 0 * 1 + win0_2.xsize (grid0.coords ⟨32 * (i 0 : Nat) + 31, hN⟩) 0
      rw [(idx2 ⟨32 * (i 0 : Nat) + 31, hN⟩).1, (xs2 ⟨32 * (i 0 : Nat) + 31, hN⟩).1]
      show (32 * (i 0 : Nat) + 31) / 32 * 1 ≤ (i 0 : Nat) ∧ (i 0 : Nat) < (32 * (i 0 : Nat) + 31) / 32 * 1 + 1
      omega
    | ⟨1, _⟩ =>
      show win0_2.index ⟨32 * (i 0 : Nat) + 31, hN⟩ 1 * 1 ≤ (i 1 : Nat)
        ∧ (i 1 : Nat) < win0_2.index ⟨32 * (i 0 : Nat) + 31, hN⟩ 1 * 1 + win0_2.xsize (grid0.coords ⟨32 * (i 0 : Nat) + 31, hN⟩) 1
      rw [(idx2 ⟨32 * (i 0 : Nat) + 31, hN⟩).2.1, (xs2 ⟨32 * (i 0 : Nat) + 31, hN⟩).2.1]
      omega
    | ⟨2, _⟩ =>
      show win0_2.index ⟨32 * (i 0 : Nat) + 31, hN⟩ 2 * 1 ≤ (i 2 : Nat)
        ∧ (i 2 : Nat) < win0_2.index ⟨32 * (i 0 : Nat) + 31, hN⟩ 2 * 1 + win0_2.xsize (grid0.coords ⟨32 * (i 0 : Nat) + 31, hN⟩) 2
      rw [(idx2 ⟨32 * (i 0 : Nat) + 31, hN⟩).2.2, (xs2 ⟨32 * (i 0 : Nat) + 31, hN⟩).2.2]
      omega

/-! ## The host's tail -/

/-- The host's sum of the count output is the number of valid rows. -/
theorem cntTotal (c : Dev nD) (j : S_.Idx) :
    Host.reduceAdd (F := Ideal) (cntArr m c) (constant S_ .f32 0x00000000#32) reducesTo_S2x1x1_S_d0_1_2 h_S_ j
      = ∑ R : Fin 4096, rowValid (target m c R) := by
  simp only [Host.reduceAdd, Ideal.hostReduceAdd_def]
  rw [Ideal.hostReduceAdd_total reducesTo_S2x1x1_S_d0_1_2 (fun b => b.elim0) (cntArr m c) _ j]
  show Ideal.ofBits .f32 0x00000000#32 + ∑ i : S2x1x1.Idx, cntFn m c i = _
  rw [Ideal.ofBits_zero_f32,
    Fintype.sum_equiv idxEquiv211 (cntFn m c)
      (fun q : Fin 2 => 0 + ∑ s ∈ Finset.range 32, blockCnt m c (32 * q.val + s) (ix2 0 0)) (fun i => rfl)]
  unfold blockCnt
  rw [regroup (valid m c)]
  refine Finset.sum_congr rfl fun R _ => ?_
  unfold valid
  rw [dif_pos R.isLt]

/-- The host's sum of the sum output is the sum of all rows' terms. -/
theorem sumTotal (c : Dev nD) (j : S_.Idx) :
    Host.reduceAdd (F := Ideal) (sumArr m c) (constant S_ .f32 0x00000000#32) reducesTo_S2x1x1_S_d0_1_2 h_S_ j
      = ∑ R : Fin 4096, rowTerm (logits m c R) (target m c R) := by
  simp only [Host.reduceAdd, Ideal.hostReduceAdd_def]
  rw [Ideal.hostReduceAdd_total reducesTo_S2x1x1_S_d0_1_2 (fun b => b.elim0) (sumArr m c) _ j]
  show Ideal.ofBits .f32 0x00000000#32 + ∑ i : S2x1x1.Idx, sumFn m c i = _
  rw [Ideal.ofBits_zero_f32,
    Fintype.sum_equiv idxEquiv211 (sumFn m c)
      (fun q : Fin 2 => 0 + ∑ s ∈ Finset.range 32, blockSum m c (32 * q.val + s) (ix2 0 0)) (fun i => rfl)]
  unfold blockSum
  rw [regroup (term m c)]
  refine Finset.sum_congr rfl fun R _ => ?_
  unfold term
  rw [dif_pos R.isLt]

/-- The result the host's tail leaves: minus the sum of the terms over the count of valid rows. -/
theorem tail_eq (c : Dev nD) :
    Pipeline.afterTail₀ cfgs (dats m) 0 (V0 m) [hostOps1] c main_v5 = fun _ => loss (logits m c) (target m c) := by
  unfold Pipeline.afterTail₀
  show StableHlo.after hostOps1 _ (Proc.devRef .tc main_v5) = _
  after_results
  have e2 : Pipeline.withArrays (cfgs 0).spec c (V0 m c) (fun w => (dats m 0 c).arrAt w (cfgs 0).N) (Proc.devRef .tc main_v1_0)
      = sumArr m c := (Pipeline.withArrays_arr spec0 launch0.win.arr_inj c _ _ 2).trans (finalSum m hlt c)
  have e3 : Pipeline.withArrays (cfgs 0).spec c (V0 m c) (fun w => (dats m 0 c).arrAt w (cfgs 0).N) (Proc.devRef .tc main_v1_1)
      = cntArr m c := (Pipeline.withArrays_arr spec0 launch0.win.arr_inj c _ _ 3).trans (finalCnt m c)
  rw [e2, e3]
  funext j
  show Ideal.div (-(Host.reduceAdd (F := Ideal) (sumArr m c) (constant S_ .f32 0x00000000#32) reducesTo_S2x1x1_S_d0_1_2 h_S_ j))
      (Host.reduceAdd (F := Ideal) (cntArr m c) (constant S_ .f32 0x00000000#32) reducesTo_S2x1x1_S_d0_1_2 h_S_ j) = _
  rw [sumTotal m hlt c j, cntTotal m hlt c j]
  rfl

/-! ## The run -/

/-- Every weakly fair execution of the kernel's program terminates with the result at the loss of the logits' rows
    and the target words, the arguments unchanged. -/
theorem run : θ_run defs (onTc (τ := τ) (main (F := Ideal))) ⟨m, fun _ => 0, ρ⟩ fun r => ∀ c : Dev nD,
      r.2.mem ((c.tc : Thread nD τ).loc main_v5) = (fun _ => loss (logits m c) (target m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m hlt c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end InRange

end Cert.KernelIdeal.Result

end
-- ==== Proof.RefWeighted.lean ====
import proofs.«418253_j57552561766415_3_alg».proof.Proof.RefRead
import proofs.«418253_j57552561766415_3_alg».proof.Proof.RowSpec
import Idealize.ShloMosaic.Lib.ValueIdx
import Idealize.ShloMosaic.Lib.Pipeline.Value
import Idealize.ShloMosaic.PureOps.Ideal.Laws
import Idealize.ShloMosaic.PureOps.Reduce

/-!
# The reference's reweighted term at one entry, on the extended reals

For the 4096 × 32000 array of logits, the reference computes at every entry (R, k) the log-softmax of row R at
column k and from it the Gaussian-reweighted term. This module reads that computation at the entry (R, k), one
operation after another, and identifies it with the row specification: the row's maximum is the fold of `max` from
`⊥` over the row's 32000 entries (clamping it against minus infinity changes nothing), the normaliser is the sum of the
exponentials of the shifted row started from zero, the log-softmax is `logProb`, and the entry of the reweighted array
is `weighted (logProb row k)`. The three float literals of the reweighting are never evaluated: the same words stand
on both sides.
-/

noncomputable section

namespace Cert.ReferenceIdeal.RefWeighted

open Idealize.ShloMosaic Idealize.ShloMosaic.ValueIdx Cert.ReferenceIdeal Cert.ReferenceIdeal.Gen Cert.ReferenceIdeal.ReadP Cert.GaussNll

/-- The float word of minus infinity denotes the least extended real. -/
theorem negInf_word : Ideal.ofBits .f32 0xFF800000#32 = (⊥ : EReal) := by simp [Ideal.ofBits, Ideal.ieee]

/-- Broadcasting a column along the rows: entry (R, k) reads the column's entry (R, 0) (the row maximum's broadcast). -/
theorem idx_v4_ix2 (R : Fin 4096) (k : Fin 32000) : idx_main_call0_v4 (ix2 R k) = ix2 R (0 : Fin 1) :=
  funext fun a => Fin.ext (by match a with | ⟨0, _⟩ => rfl | ⟨1, _⟩ => rfl)

/-- A vector turned into a column: entry (R, 0) reads the vector's entry R (the row maxima). -/
theorem idx_v3_ix2 (R : Fin 4096) : idx_main_call0_v3 (ix2 R (0 : Fin 1)) = ix1 R :=
  funext fun a => Fin.ext (by match a with | ⟨0, _⟩ => rfl)

/-- Broadcasting a column along the rows: entry (R, k) reads the column's entry (R, 0) (the log-normaliser's broadcast). -/
theorem idx_v10_ix2 (R : Fin 4096) (k : Fin 32000) : idx_main_call0_v10 (ix2 R k) = ix2 R (0 : Fin 1) :=
  funext fun a => Fin.ext (by match a with | ⟨0, _⟩ => rfl | ⟨1, _⟩ => rfl)

/-- A vector turned into a column: entry (R, 0) reads the vector's entry R (the row sums). -/
theorem idx_v8_ix2 (R : Fin 4096) : idx_main_call0_v8 (ix2 R (0 : Fin 1)) = ix1 R :=
  funext fun a => Fin.ext (by match a with | ⟨0, _⟩ => rfl)

/-- The k-th summand of row R's sum is the entry (R, k). -/
theorem idx_v7_ix1 (R : Fin 4096) (k : Fin 32000) : idx_main_call0_v7 (ix1 R) k = ix2 R k :=
  funext fun a => Fin.ext (by match a with | ⟨0, _⟩ => rfl | ⟨1, _⟩ => rfl)

/-- The row index R with the column coordinate k put back on the reduced axis is the entry (R, k). -/
theorem lift_ix1 (h : S4096x32000.Reduces [1] S4096) (R : Fin 4096) (k : Fin (S4096x32000.size 1)) :
    h.lift (ix1 R) k = ix2 R (⟨k.val, k.isLt⟩ : Fin 32000) := by
  funext c; apply Fin.ext
  fin_cases c <;> rfl

/-- The reduction by maximum along the columns, started from minus infinity, is at row R the fold of `max` from `⊥`
    over the row: the specification's row maximum. -/
theorem rowMax_stage (x0 : (⟨S4096x32000, .f32⟩ : BufTy).Contents (Elt Ideal)) (R : Fin 4096) :
    val_main_call0_v0 (F := Ideal) x0 (ix1 R) = rowMax (fun k' => x0 (ix2 R k')) := by
  have h : S4096x32000.Reduces [1] S4096 := by decide
  unfold val_main_call0_v0 rowMax
  refine (Host.reduce_eq_fold_single (α := Ideal .f32) (FloatOps.maximumf (F := Ideal) (φ := .f32)) x0 (val_main_call0_cst (F := Ideal)) reducesTo_S4096x32000_S4096_d1 h h_S_ (ix1 R)).trans ?_
  have hf : (x0 ∘ h.lift (ix1 R)) = fun k' : Fin 32000 => x0 (ix2 R k') :=
    funext fun k' => congrArg x0 (lift_ix1 h R k')
  refine (congrArg (fun f => Finset.fold (FloatOps.maximumf (F := Ideal) (φ := .f32)) (val_main_call0_cst (F := Ideal) (Shape.Idx.first h_S_)) f
    (Finset.univ : Finset (Fin 32000))) hf).trans ?_
  exact congrArg (fun b : EReal => Finset.fold max b (fun k' => x0 (ix2 R k')) (Finset.univ : Finset (Fin 32000))) negInf_word

/-- Clamping the row maximum from below by minus infinity changes nothing: `max ⊥ a = a`. -/
theorem rowMaxClamped_stage (x0 : (⟨S4096x32000, .f32⟩ : BufTy).Contents (Elt Ideal)) (R : Fin 4096) :
    val_main_call0_v2 (F := Ideal) x0 (ix1 R) = rowMax (fun k' => x0 (ix2 R k')) := by
  rw [val_main_call0_v2_apply, val_main_call0_v1_apply, val_main_call0_cst_0_apply, rowMax_stage]
  simp only [Ideal.maximumf_def, Ideal.ofBits_def]
  rw [negInf_word]
  exact max_bot_left _

/-- The shifted logit at (R, k): the entry minus its row's maximum. -/
theorem shifted_stage (x0 : (⟨S4096x32000, .f32⟩ : BufTy).Contents (Elt Ideal)) (R : Fin 4096) (k : Fin 32000) :
    val_main_call0_v5 (F := Ideal) x0 (ix2 R k) = x0 (ix2 R k) - rowMax (fun k' => x0 (ix2 R k')) := by
  rw [val_main_call0_v5_apply, val_main_call0_v4_apply, idx_v4_ix2, val_main_call0_v3_apply, idx_v3_ix2, rowMaxClamped_stage]
  rfl

/-- The broadcast logarithm of the normaliser, at every column of row R: zero plus the sum over the row of the
    exponentials of the shifted logits, then the logarithm — the specification's `logNorm`. -/
theorem logNorm_stage (x0 : (⟨S4096x32000, .f32⟩ : BufTy).Contents (Elt Ideal)) (R : Fin 4096) (k : Fin 32000) :
    val_main_call0_v10 (F := Ideal) x0 (ix2 R k) = logNorm (fun k' => x0 (ix2 R k')) := by
  rw [val_main_call0_v10_apply, idx_v10_ix2, val_main_call0_v9_apply, val_main_call0_v8_apply, idx_v8_ix2, val_main_call0_v7_apply,
    val_main_call0_cst_1_apply]
  simp only [idx_v7_ix1, val_main_call0_v6_apply, shifted_stage, Ideal.hostUnary_exp_def, Ideal.hostUnary_log_def, Ideal.ofBits_def,
    Ideal.ofBits_zero_f32, zero_add]
  rfl

/-- The log-softmax at (R, k): the shifted logit minus the logarithm of the normaliser — the specification's `logProb`. -/
theorem logProb_stage (x0 : (⟨S4096x32000, .f32⟩ : BufTy).Contents (Elt Ideal)) (R : Fin 4096) (k : Fin 32000) :
    val_main_v0 (F := Ideal) x0 (ix2 R k) = logProb (fun k' => x0 (ix2 R k')) k := by
  rw [val_main_v0_apply, shifted_stage, logNorm_stage]
  rfl

/-- The reweighted array at (R, k): with `lp` the log-softmax there and `p = exp lp`, the entry is
    `(exp (-(p - 1/2)² / 2σ²) - 0.1 p) · lp`, the specification's `weighted` of the row's `logProb` at column k. -/
theorem weighted_apply (x0 : (⟨S4096x32000, .f32⟩ : BufTy).Contents (Elt Ideal)) (R : Fin 4096) (k : Fin 32000) :
    val_main_v12 (F := Ideal) x0 (ix2 R k) = weighted (logProb (fun k' => x0 (ix2 R k')) k) := by
  rw [val_main_v12_apply, val_main_v11_apply, val_main_v8_apply, val_main_v7_apply, val_main_v5_apply, val_main_v4_apply, val_main_v3_apply,
    val_main_v1_apply, val_main_v2_apply, val_main_cst_apply, val_main_v6_apply, val_main_cst_0_apply, val_main_v10_apply, val_main_v9_apply,
    val_main_cst_1_apply, val_main_v1_apply, logProb_stage]
  simp only [Ideal.hostUnary_exp_def, Ideal.hostDivf_def, Ideal.hostNegf_def, Ideal.negf_def, Ideal.mulf_def, Ideal.subf_def, Ideal.ofBits_def]
  rfl

end Cert.ReferenceIdeal.RefWeighted

end
-- ==== Proof.RefGather.lean ====
import proofs.«418253_j57552561766415_3_alg».proof.Proof.RefRead
import proofs.«418253_j57552561766415_3_alg».proof.Proof.RowSpec
import Idealize.ShloMosaic.Lib.ValueIdx
import Idealize.ShloMosaic.Lib.Pipeline.Value
import Idealize.ShloMosaic.PureOps.Ideal.Laws
import Idealize.ShloMosaic.Lib.ReduceAll

/-!
# The reference's take-along-axis, read at a row

The reference picks, per row `R`, one entry of a `[4096, 32000]` array: the target word `w` of the row is raised
to `max w 0`, a negative result would be wrapped by adding 32000 (it never is, the maximum being non-negative),
the resulting start word `s` is tested for `0 ≤ s ≤ 31999`, the array is gathered at `(R, clamp s)`, and where
the test fails a not-a-number word is substituted. For a target word below 32000 as a signed integer the start
word is `max w 0` itself, it lies in `[0, 31999]`, so the test holds, the clamp changes nothing, and the entry
picked is the one at column `column w` of the row specification. `gathered_apply` states exactly that, for any
gathered array.
-/

noncomputable section

namespace Cert.ReferenceIdeal.RefGather

open Idealize.ShloMosaic Idealize.ShloMosaic.ValueIdx Cert.ReferenceIdeal Cert.ReferenceIdeal.ReadP Cert.GaussNll

/-! ## Words -/

/-- The signed maximum of a word and zero has the signed value `max w 0`. -/
theorem toInt_maxsi_zero (w : BitVec 32) : (IntOp.maxsi w 0#32).toInt = max w.toInt 0 := by
  unfold IntOp.maxsi
  have h0 : (0#32 : BitVec 32).toInt = 0 := by decide
  split <;> rename_i h <;> rw [BitVec.slt_iff_toInt_lt, h0] at h <;> omega

/-- The start word the reference computes from a target word `w`: `m = max w 0`, replaced by `m + 32000` when
    `m` is negative. -/
def startWord (w : BitVec 32) : BitVec 32 :=
  Scalar.select (IntOp.cmpi .slt (IntOp.maxsi w 0#32) 0#32) (IntOp.addi (IntOp.maxsi w 0#32) 32000#32) (IntOp.maxsi w 0#32)

/-- `max w 0` is never negative, so the wrap-around branch is not taken: the start word is `max w 0`. -/
theorem startWord_eq (w : BitVec 32) : startWord w = IntOp.maxsi w 0#32 := by
  unfold startWord
  have h : IntOp.cmpi .slt (IntOp.maxsi w 0#32) 0#32 = 0#1 := by
    refine eq_zero_of_ne_one fun h => ?_
    rw [IntOp.cmpi_slt, toInt_maxsi_zero, show (0#32 : BitVec 32).toInt = 0 from by decide] at h
    omega
  rw [h, select_zero]

/-- The start word's signed value is `max w 0`. -/
theorem toInt_startWord (w : BitVec 32) : (startWord w).toInt = max w.toInt 0 := by
  rw [startWord_eq, toInt_maxsi_zero]

/-- For a target word below 32000 the start word passes the range test `0 ≤ s ∧ s ≤ 31999`. -/
theorem inRange_startWord (w : BitVec 32) (hw : w.toInt < 32000) :
    IntOp.andi (IntOp.cmpi .sge (startWord w) 0#32) (IntOp.cmpi .sle (startWord w) 31999#32) = 1#1 := by
  rw [IntOp.andi_eq_one, IntOp.cmpi_sge, IntOp.cmpi_sle, toInt_startWord,
    show (0#32 : BitVec 32).toInt = 0 from by decide, show (31999#32 : BitVec 32).toInt = 31999 from by decide]
  omega

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_ones f l fun n hn => h n (List.mem_cons_of_mem _ hn)

/-! ## The stages -/

/-- The array of start indices, `[4096, 1, 1]`, holds at `(r, ·, ·)` the start word of row `r`'s target: the
    two size-one axes carry no information, and every stage up to here acts element by element. -/
theorem idxWord_apply (x1 : (⟨S4096, .i32⟩ : BufTy).Contents (Elt Ideal)) (i : S4096x1x1.Idx) :
    val_main_call1_v5 (F := Ideal) x1 i = startWord (x1 (ix1 (i 0))) := by
  have hi : idx_main_v17 (idx_main_call1_v5 i) = ix1 (i 0) := by
    funext a
    match a with
    | ⟨0, _⟩ =>
      refine Fin.ext ?_
      have h1 : (i 1).val < 1 := (i 1).isLt
      have h2 : (i 2).val < 1 := (i 2).isLt
      show (((i 0).val * 1 + (i 1).val) * 1 + (i 2).val) / 1 = (i 0).val
      omega
  rw [val_main_call1_v5_apply, val_main_call1_v4_apply, val_main_call1_v1_apply, val_main_call1_v3_apply,
    val_main_v17_apply, val_main_v16_apply, val_main_v15_apply, val_main_c_2_apply,
    val_main_call1_v0_apply, val_main_call1_c_apply, val_main_call1_v2_apply, val_main_call1_c_0_apply, hi]
  rfl

/-- The validity mask, the `and` over the last (size-one) axis of the range test, is 1 at a row whose target word
    is below 32000: every index folded into `(r, ·)` has first coordinate `r`, and there the test holds. -/
theorem mask_apply (x1 : (⟨S4096, .i32⟩ : BufTy).Contents (Elt Ideal)) (j : S4096x1.Idx)
    (hw : (x1 (ix1 (j 0))).toInt < 32000) : val_main_call1_v12 (F := Ideal) x1 j = 1#1 := by
  unfold val_main_call1_v12
  rw [Host.reduce_eq_foldl, val_main_call1_c_3_apply]
  refine foldl_andi_ones _ _ fun i hi => ?_
  rw [List.mem_filter] at hi
  have hd := of_decide_eq_true hi.2
  have h0 : i 0 = j 0 := by
    refine Fin.ext ?_
    rw [← hd]
    exact (Shape.ReducesTo.drop_apply_val_of_eq _ i 0 0).symm
  rw [val_main_call1_v11_apply, val_main_call1_v7_apply, val_main_call1_v10_apply, idxWord_apply,
    val_main_call1_v6_apply, val_main_call1_c_2_apply, val_main_call1_v9_apply, val_main_call1_v8_apply,
    val_main_call1_c_1_apply, h0]
  exact inRange_startWord _ hw

/-- The gather read at an index `j = (r, ·)`: axis 0 of the operand is a batching axis, paired with axis 0 of the
    start indices, so its coordinate is `j`'s first; axis 1 is collapsed and start-indexed, so its coordinate is the
    start word at `(j 0, j 1, 0)` read signed and clamped into `[0, 31999]`. The row `r` and column `c` are named
    by the caller, with the two equations that identify them. -/
theorem gather_apply {α : Type} (y : S4096x32000.Idx → α) (idx : IVec S4096x1x1 32) (j : S4096x1.Idx)
    (r : Fin 4096) (c : Fin 32000) (hr : (j 0).val = r.val)
    (hc : min (idx (ix3 (j 0) (j 1) 0)).toInt.toNat 31999 = c.val) :
    Host.gather gather_S4096x32000_S4096x1x1_S4096x1_n_1_0_0_1_2_11 y idx j = y (ix2 r c) := by
  unfold Host.gather
  congr 1
  funext a
  refine Fin.ext ?_
  match a with
  | ⟨0, _⟩ =>
    show gather_S4096x32000_S4096x1x1_S4096x1_n_1_0_0_1_2_11.start j idx 0
      + gather_S4096x32000_S4096x1x1_S4096x1_n_1_0_0_1_2_11.batchCoord j 0
      + gather_S4096x32000_S4096x1x1_S4096x1_n_1_0_0_1_2_11.offCoord j 0 = r.val
    rw [GatherDims.start_batching _ _ _ _ (show (0 : Fin 2) ∈ [0] from List.mem_singleton.mpr rfl),
      GatherDims.offCoord_eq_zero _ _ _ (fun h => ((GatherDims.mem_sKept _ _).mp h).2 (show (0 : Fin 2) ∈ [0] from List.mem_singleton.mpr rfl))]
    simp only [Nat.add_zero, Nat.zero_add]
    exact hr
  | ⟨1, _⟩ =>
    show gather_S4096x32000_S4096x1x1_S4096x1_n_1_0_0_1_2_11.start j idx 1
      + gather_S4096x32000_S4096x1x1_S4096x1_n_1_0_0_1_2_11.batchCoord j 1
      + gather_S4096x32000_S4096x1x1_S4096x1_n_1_0_0_1_2_11.offCoord j 1 = c.val
    rw [GatherDims.batchCoord_eq_zero _ _ _ (show (1 : Fin 2) ∉ [0] from by decide),
      GatherDims.offCoord_eq_zero _ _ _ (fun h => ((GatherDims.mem_sKept _ _).mp h).1 (show (1 : Fin 2) ∈ [1] from List.mem_singleton.mpr rfl))]
    simp only [Nat.add_zero]
    unfold GatherDims.start
    rw [dif_pos (show (1 : Fin 2) ∈ gather_S4096x32000_S4096x1x1_S4096x1_n_1_0_0_1_2_11.startIndexMap from List.mem_singleton.mpr rfl)]
    have hsi : gather_S4096x32000_S4096x1x1_S4096x1_n_1_0_0_1_2_11.siIdx j
        ⟨List.idxOf (1 : Fin 2) gather_S4096x32000_S4096x1x1_S4096x1_n_1_0_0_1_2_11.startIndexMap,
          List.idxOf_lt_length_iff.2 (List.mem_singleton.mpr rfl)⟩ = ix3 (j 0) (j 1) 0 := by
      funext b; refine Fin.ext ?_
      match b with
      | ⟨0, _⟩ => rfl
      | ⟨1, _⟩ => rfl
      | ⟨2, _⟩ => rfl
    rw [hsi]
    exact hc

/-! ## The entry picked -/

/-- THE ENTRY PICKED AT ROW `R`: for a target word below 32000 as a signed integer, the reference's
    take-along-axis returns the gathered array's entry at `(R, column w)`. The mask is 1 there, so the select keeps
    the gather; the gather reads row `R` at the clamped start word, and `min (max w 0) 31999 = max w 0`, which is
    also its remainder modulo 32000. -/
theorem gathered_apply (x0 : (⟨S4096x32000, .f32⟩ : BufTy).Contents (Elt Ideal)) (x1 : (⟨S4096, .i32⟩ : BufTy).Contents (Elt Ideal))
    (R : Fin 4096) (hR : (x1 (ix1 R)).toInt < 32000) :
    val_main_v19 (F := Ideal) x0 x1 (ix1 R) = val_main_v12 (F := Ideal) x0 (ix2 R (column (x1 (ix1 R)))) := by
  have hj0 : idx_main_v19 (ix1 R) 0 = R := Fin.ext (Nat.div_one _)
  have hw : val_main_call1_v5 (F := Ideal) x1 (ix3 (idx_main_v19 (ix1 R) 0) (idx_main_v19 (ix1 R) 1) 0)
      = startWord (x1 (ix1 R)) := by
    rw [idxWord_apply]
    exact congrArg (fun r => startWord (x1 (ix1 r))) hj0
  rw [val_main_v19_apply, val_main_v18_apply, mask_apply x1 _ (by rw [hj0]; exact hR), select_one]
  unfold val_main_call1_v13
  refine gather_apply _ _ _ R (column (x1 (ix1 R))) (congrArg Fin.val hj0) ?_
  rw [hw, toInt_startWord]
  show min (max (x1 (ix1 R)).toInt 0).toNat 31999 = (max (x1 (ix1 R)).toInt 0).toNat % 32000
  omega

end Cert.ReferenceIdeal.RefGather

end
-- ==== Proof.RefCount.lean ====
import proofs.«418253_j57552561766415_3_alg».proof.Proof.RefRead
import proofs.«418253_j57552561766415_3_alg».proof.Proof.RowSpec
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine
import Idealize.ShloMosaic.Lib.StableHlo.Predicate

/-!
# The reference's count of valid rows

The reference counts the valid rows with integer words: each target word is compared with `-1`, the
one-bit answer is widened to a 32-bit word (so it is `1` for a valid row and `0` for an ignored one),
the 4096 words are added, and the word sum, read as a signed integer, is converted to a float. A sum of
4096 words each `0` or `1` is at most 4096, far below `2^31`, so the addition never wraps and the signed
value of the word sum is the number of valid rows. On the extended reals that number is the sum over the
rows of `rowValid`, which is `1` or `0` on the same condition.
-/

noncomputable section

namespace Cert.ReferenceIdeal.RefCount

open Idealize.ShloMosaic Idealize.ShloMosaic.ValueIdx Cert.ReferenceIdeal Cert.ReferenceIdeal.ReadP Cert.GaussNll

/-- An index of a one-axis shape is its one coordinate. -/
def idxEquiv1 {n : Nat} : (⟨1, ![n]⟩ : Shape).Idx ≃ Fin n where
  toFun j := j 0
  invFun := ix1
  left_inv j := (eq_ix1 j).symm
  right_inv _ := rfl

/-- The widened answer of the comparison with `-1`, as a number: `0` for the ignored word, `1` for any other. -/
theorem word_toNat (w : BitVec 32) :
    ((IntOp.cmpi .ne w 4294967295#32).setWidth 32).toNat = if w = ignored then 0 else 1 := by
  rw [StableHlo.Predicate.toNat_setWidth_bit]
  by_cases h : w = 4294967295#32
  · subst h; rfl
  · rw [if_neg h, if_pos (IntOp.cmpi_ne.2 h)]

/-- The count of valid rows as a natural number, cast to the extended reals, is the sum of `rowValid`. -/
theorem cast_count (tg : Fin 4096 → BitVec 32) (S : Finset (Fin 4096)) :
    (((∑ R ∈ S, (if tg R = ignored then 0 else 1 : ℕ) : ℕ) : ℝ) : EReal) = ∑ R ∈ S, rowValid (tg R) := by
  induction S using Finset.induction_on with
  | empty => simp
  | insert a S ha ih =>
    rw [Finset.sum_insert ha, Finset.sum_insert ha, Nat.cast_add, EReal.coe_add, ih]
    congr 1
    unfold rowValid
    split <;> simp

/-- The reference's float count of valid rows is, on the extended reals, the sum over the 4096 rows of `rowValid` of
    the row's target word: the word sum of the widened comparison bits does not wrap, so its signed value is the
    number of rows whose target is not `-1`. -/
theorem count_apply (x1 : (⟨S4096, .i32⟩ : BufTy).Contents (Elt Ideal)) (i : S_.Idx) :
    val_main_v22 (F := Ideal) x1 i = ∑ R : Fin 4096, rowValid (x1 (ix1 R)) := by
  rw [val_main_v22_apply]
  show (((val_main_v21 (F := Ideal) x1 i).toInt : ℝ) : EReal) = _
  -- the word sum is a fold of word addition over every row
  have hfold : val_main_v21 (F := Ideal) x1 i
      = (Finset.univ : Finset S4096.Idx).fold IntOp.addi 0#32 (val_main_v20 (F := Ideal) x1) := by
    unfold val_main_v21
    rw [Host.reduce_eq_fold]
    rw [Finset.filter_true_of_mem (fun j _ => funext fun d => d.elim0)]
    rfl
  -- each summand is 0 or 1
  have hval : ∀ j : S4096.Idx, (val_main_v20 (F := Ideal) x1 j).toNat = if x1 j = ignored then 0 else 1 := by
    intro j
    rw [val_main_v20_apply, val_main_v14_apply, val_main_v13_apply, val_main_c_apply]
    exact word_toNat (x1 j)
  have hsum : ∑ j : S4096.Idx, (val_main_v20 (F := Ideal) x1 j).toNat
      = ∑ R : Fin 4096, (if x1 (ix1 R) = ignored then 0 else 1 : ℕ) := by
    refine Fintype.sum_equiv idxEquiv1 _ _ (fun j => ?_)
    rw [hval j]
    exact congrArg (fun k => if x1 k = ignored then 0 else 1) (eq_ix1 j)
  have hle : ∑ R : Fin 4096, (if x1 (ix1 R) = ignored then 0 else 1 : ℕ) ≤ 4096 := by
    calc ∑ R : Fin 4096, (if x1 (ix1 R) = ignored then 0 else 1 : ℕ)
        ≤ ∑ _R : Fin 4096, 1 := Finset.sum_le_sum (fun R _ => by split <;> omega)
      _ = 4096 := by simp
  have hnat : (val_main_v21 (F := Ideal) x1 i).toNat
      = ∑ R : Fin 4096, (if x1 (ix1 R) = ignored then 0 else 1 : ℕ) := by
    rw [hfold, StableHlo.Predicate.toNat_fold_addi _ _ (by rw [hsum]; omega), hsum]
  rw [StableHlo.Predicate.toInt_eq_toNat_of_lt (by rw [hnat]; omega), hnat, Int.cast_natCast]
  exact cast_count (fun R => x1 (ix1 R)) Finset.univ

end Cert.ReferenceIdeal.RefCount

end
-- ==== Proof.RefValue.lean ====
import proofs.«418253_j57552561766415_3_alg».proof.Proof.RefWeighted
import proofs.«418253_j57552561766415_3_alg».proof.Proof.RefGather
import proofs.«418253_j57552561766415_3_alg».proof.Proof.RefCount
import proofs.«418253_j57552561766415_3_alg».proof.Proof.RowSpec
import Idealize.ShloMosaic.Lib.ValueIdx
import Idealize.ShloMosaic.PureOps.Ideal.Laws

/-!
# The reference computes the loss

Row by row the reference's masked term is `rowTerm`: for an ignored row the mask picks the zero, for any other row
the gathered entry is the reweighted term at the target's column. Its sum over the rows, negated, over the count of
valid rows, is the loss.
-/

noncomputable section

namespace Cert.ReferenceIdeal.RefValue

open Idealize.ShloMosaic Idealize.ShloMosaic.ValueIdx Cert.ReferenceIdeal Cert.ReferenceIdeal.ReadP Cert.GaussNll

/-- The reference's masked term of row `R` is the row's term of the sum. -/
theorem masked_row (x0 : (⟨S4096x32000, .f32⟩ : BufTy).Contents (Elt Ideal)) (x1 : (⟨S4096, .i32⟩ : BufTy).Contents (Elt Ideal))
    (hr : ∀ R : Fin 4096, (x1 (ix1 R)).toInt < 32000) (R : Fin 4096) :
    val_main_v23 (F := Ideal) x0 x1 (ix1 R) = rowTerm (fun k => x0 (ix2 R k)) (x1 (ix1 R)) := by
  rw [val_main_v23_apply, val_main_v14_apply, val_main_v13_apply, val_main_c_apply]
  unfold rowTerm
  by_cases h : x1 (ix1 R) = ignored
  · rw [if_pos h, h]
    have e : IntOp.cmpi .ne (4294967295#32 : BitVec 32) 4294967295#32 = 0#1 := by decide
    rw [e, select_zero, val_main_call2_v1_apply, val_main_call2_v0_apply, val_main_cst_4_apply]
    exact Ideal.ofBits_zero_f32
  · rw [if_neg h, IntOp.cmpi_ne.2 h, select_one, RefGather.gathered_apply x0 x1 R (hr R), RefWeighted.weighted_apply]

/-- The reference's result is the loss of the logits' rows and the target words. -/
theorem ref_value (x0 : (⟨S4096x32000, .f32⟩ : BufTy).Contents (Elt Ideal)) (x1 : (⟨S4096, .i32⟩ : BufTy).Contents (Elt Ideal))
    (hr : ∀ R : Fin 4096, (x1 (ix1 R)).toInt < 32000) :
    val_main_v26 (F := Ideal) x0 x1 = fun _ => loss (fun R k => x0 (ix2 R k)) (fun R => x1 (ix1 R)) := by
  funext i
  have hs : ∑ j : S4096.Idx, val_main_v23 (F := Ideal) x0 x1 j
      = ∑ R : Fin 4096, rowTerm (fun k => x0 (ix2 R k)) (x1 (ix1 R)) := by
    refine Fintype.sum_equiv RefCount.idxEquiv1 _ _ (fun j => ?_)
    exact (congrArg (val_main_v23 (F := Ideal) x0 x1) (eq_ix1 j)).trans (masked_row x0 x1 hr (j 0))
  rw [val_main_v26_apply, val_main_v25_apply, val_main_v24_apply, RefCount.count_apply, val_main_cst_5_apply, hs]
  simp only [Ideal.hostDivf_def, Ideal.hostNegf_def, Ideal.negf_def, Ideal.ofBits_def, Ideal.ofBits_zero_f32, zero_add]
  rfl

end Cert.ReferenceIdeal.RefValue

end
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«418253_j57552561766415_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefStages.lean ====
/-
  The reference program's run, read stage by stage.

  The reference computes its loss by a straight line of 72 array operations, each writing a buffer of its own: the
  row-wise log-softmax of the logits, the Gaussian reweighting of each log-probability, the pick of the target's
  column, the mask of ignored rows, the two sums over rows and their quotient. Every execution ends with each buffer
  holding the fold of the operations over the launch contents. Here that fold is read without ever being opened:
  operation number p writes the buffer of table index p + 2 and reads only buffers of smaller index, so no operation
  disturbs what an earlier one wrote or read, and after the whole line each buffer holds its operation's function of
  what the operand buffers hold after the whole line. By induction along the line each buffer holds its stage value,
  a function of the two arguments' launch contents alone; the last stage is the loss, and the two arguments, written
  by no operation, are unchanged.
-/
import proofs.«418253_j57552561766415_3_alg».proof.Proof.RefRead
import proofs.«418253_j57552561766415_3_alg».proof.Proof.LibHostRank
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.HostRead

variable {F : FTy → Type} [FloatOps F]

/-- A buffer's rank: its index in its table. -/
def rk (b : DevRef τ sig) : Nat := b.idx.val

section RankedCons

variable {n : Nat} {l : List (HloOp τ sig (Elt F))}

/-- A constant whose buffer has rank n, before a line ranked from n + 1. -/
theorem ranked_nullary {y : Ref sig .tc} {v : y.ty.Contents (Elt F)}
    {hy : y.space ≠ .host ∧ (Proc.devRef (τ := τ) .tc y).isScoped = false}
    (ry : rk (Proc.devRef .tc y) = n) (h : Ranked rk (n + 1) l) : Ranked rk n (nullary y v hy :: l) :=
  ⟨fun b hb => (Finset.mem_singleton.mp hb) ▸ ry, fun b hb => (Finset.mem_singleton.mp hb) ▸ ry.le, h⟩

/-- An operation of one operand whose result has rank n and whose operand at most n. -/
theorem ranked_unary {x y : Ref sig .tc} {f : x.ty.Contents (Elt F) → y.ty.Contents (Elt F)}
    {hx : x.space ≠ .host ∧ (Proc.devRef (τ := τ) .tc x).isScoped = false}
    {hy : y.space ≠ .host ∧ (Proc.devRef (τ := τ) .tc y).isScoped = false}
    (ry : rk (Proc.devRef .tc y) = n) (rx : rk (Proc.devRef .tc x) ≤ n)
    (h : Ranked rk (n + 1) l) : Ranked rk n (unary x y f hx hy :: l) :=
  ⟨fun b hb => (Finset.mem_singleton.mp hb) ▸ ry,
   fun b hb => by
    rcases Finset.mem_insert.mp hb with rfl | hb
    · exact rx
    · exact (Finset.mem_singleton.mp hb) ▸ ry.le, h⟩

/-- A reshape whose result has rank n and whose operand at most n. -/
theorem ranked_reshape {x y : Ref sig .tc} {he : x.ty.elt = y.ty.elt} {hn : x.ty.shape.ShapeCasts y.ty.shape}
    {hx : x.space ≠ .host ∧ (Proc.devRef (τ := τ) .tc x).isScoped = false}
    {hy : y.space ≠ .host ∧ (Proc.devRef (τ := τ) .tc y).isScoped = false}
    (ry : rk (Proc.devRef .tc y) = n) (rx : rk (Proc.devRef .tc x) ≤ n)
    (h : Ranked rk (n + 1) l) : Ranked rk n ((reshape x y he hn hx hy : HloOp τ sig (Elt F)) :: l) :=
  ⟨fun b hb => (Finset.mem_singleton.mp hb) ▸ ry,
   fun b hb => by
    rcases Finset.mem_insert.mp hb with rfl | hb
    · exact rx
    · exact (Finset.mem_singleton.mp hb) ▸ ry.le, h⟩

/-- An operation of two operands whose result has rank n and whose operands at most n. -/
theorem ranked_binary {a b y : Ref sig .tc} {f : a.ty.Contents (Elt F) → b.ty.Contents (Elt F) → y.ty.Contents (Elt F)}
    {ha : a.space ≠ .host ∧ (Proc.devRef (τ := τ) .tc a).isScoped = false}
    {hb : b.space ≠ .host ∧ (Proc.devRef (τ := τ) .tc b).isScoped = false}
    {hy : y.space ≠ .host ∧ (Proc.devRef (τ := τ) .tc y).isScoped = false}
    (ry : rk (Proc.devRef .tc y) = n) (ra : rk (Proc.devRef .tc a) ≤ n) (rb : rk (Proc.devRef .tc b) ≤ n)
    (h : Ranked rk (n + 1) l) : Ranked rk n (binary a b y f ha hb hy :: l) :=
  ⟨fun c hc => (Finset.mem_singleton.mp hc) ▸ ry,
   fun c hc => by
    rcases Finset.mem_insert.mp hc with rfl | hc
    · exact ra
    rcases Finset.mem_insert.mp hc with rfl | hc
    · exact rb
    · exact (Finset.mem_singleton.mp hc) ▸ ry.le, h⟩

/-- An operation of three operands whose result has rank n and whose operands at most n. -/
theorem ranked_ternary {c a b y : Ref sig .tc}
    {f : c.ty.Contents (Elt F) → a.ty.Contents (Elt F) → b.ty.Contents (Elt F) → y.ty.Contents (Elt F)}
    {hc : c.space ≠ .host ∧ (Proc.devRef (τ := τ) .tc c).isScoped = false}
    {ha : a.space ≠ .host ∧ (Proc.devRef (τ := τ) .tc a).isScoped = false}
    {hb : b.space ≠ .host ∧ (Proc.devRef (τ := τ) .tc b).isScoped = false}
    {hy : y.space ≠ .host ∧ (Proc.devRef (τ := τ) .tc y).isScoped = false}
    (ry : rk (Proc.devRef .tc y) = n) (rc : rk (Proc.devRef .tc c) ≤ n) (ra : rk (Proc.devRef .tc a) ≤ n)
    (rb : rk (Proc.devRef .tc b) ≤ n)
    (h : Ranked rk (n + 1) l) : Ranked rk n (ternary c a b y f hc ha hb hy :: l) :=
  ⟨fun d hd => (Finset.mem_singleton.mp hd) ▸ ry,
   fun d hd => by
    rcases Finset.mem_insert.mp hd with rfl | hd
    · exact rc
    rcases Finset.mem_insert.mp hd with rfl | hd
    · exact ra
    rcases Finset.mem_insert.mp hd with rfl | hd
    · exact rb
    · exact (Finset.mem_singleton.mp hd) ▸ ry.le, h⟩

end RankedCons

section TypedForms

/-- A typed constant at a literal buffer is the plain constant: its transport is along a reflexivity. -/
theorem tref_nullary_eq (y : Ref sig .tc) (hy1 : y.space ≠ .host) (hy2 : y.isScoped = false) (v : y.ty.Contents (Elt F)) :
    (TRef.nullary (⟨y, rfl, hy1, hy2⟩ : TRef sig y.ty) v : HloOp τ sig (Elt F)) = nullary y v ⟨hy1, hy2⟩ := rfl

/-- A typed operation of one operand at literal buffers is the plain one. -/
theorem tref_unary_eq (x y : Ref sig .tc) (hx1 : x.space ≠ .host) (hx2 : x.isScoped = false)
    (hy1 : y.space ≠ .host) (hy2 : y.isScoped = false) (f : x.ty.Contents (Elt F) → y.ty.Contents (Elt F)) :
    (TRef.unary (⟨x, rfl, hx1, hx2⟩ : TRef sig x.ty) (⟨y, rfl, hy1, hy2⟩ : TRef sig y.ty) f : HloOp τ sig (Elt F))
      = unary x y f ⟨hx1, hx2⟩ ⟨hy1, hy2⟩ := rfl

/-- A typed operation of two operands at literal buffers is the plain one. -/
theorem tref_binary_eq (a b y : Ref sig .tc) (ha1 : a.space ≠ .host) (ha2 : a.isScoped = false)
    (hb1 : b.space ≠ .host) (hb2 : b.isScoped = false) (hy1 : y.space ≠ .host) (hy2 : y.isScoped = false)
    (f : a.ty.Contents (Elt F) → b.ty.Contents (Elt F) → y.ty.Contents (Elt F)) :
    (TRef.binary (⟨a, rfl, ha1, ha2⟩ : TRef sig a.ty) (⟨b, rfl, hb1, hb2⟩ : TRef sig b.ty)
        (⟨y, rfl, hy1, hy2⟩ : TRef sig y.ty) f : HloOp τ sig (Elt F))
      = binary a b y f ⟨ha1, ha2⟩ ⟨hb1, hb2⟩ ⟨hy1, hy2⟩ := rfl

/-- A typed operation of three operands at literal buffers is the plain one. -/
theorem tref_ternary_eq (c a b y : Ref sig .tc) (hc1 : c.space ≠ .host) (hc2 : c.isScoped = false)
    (ha1 : a.space ≠ .host) (ha2 : a.isScoped = false)
    (hb1 : b.space ≠ .host) (hb2 : b.isScoped = false) (hy1 : y.space ≠ .host) (hy2 : y.isScoped = false)
    (f : c.ty.Contents (Elt F) → a.ty.Contents (Elt F) → b.ty.Contents (Elt F) → y.ty.Contents (Elt F)) :
    (TRef.ternary (⟨c, rfl, hc1, hc2⟩ : TRef sig c.ty) (⟨a, rfl, ha1, ha2⟩ : TRef sig a.ty)
        (⟨b, rfl, hb1, hb2⟩ : TRef sig b.ty) (⟨y, rfl, hy1, hy2⟩ : TRef sig y.ty) f : HloOp τ sig (Elt F))
      = ternary c a b y f ⟨hc1, hc2⟩ ⟨ha1, ha2⟩ ⟨hb1, hb2⟩ ⟨hy1, hy2⟩ := rfl

end TypedForms

set_option maxRecDepth 8192 in
/-- The line is ranked from 2 by the buffers' table indices: operation number p writes buffer number p + 2 and reads
    only buffers of smaller index. -/
theorem ranked : Ranked rk 2 (ValueP.ops (F := F)) := by
  refine ranked_nullary rfl ?_
  refine ranked_binary rfl (by decide) (by decide) ?_
  refine ranked_nullary rfl ?_
  refine ranked_unary rfl (by decide) ?_
  refine ranked_binary rfl (by decide) (by decide) ?_
  refine ranked_unary rfl (by decide) ?_
  refine ranked_unary rfl (by decide) ?_
  refine ranked_binary rfl (by decide) (by decide) ?_
  refine ranked_unary rfl (by decide) ?_
  refine ranked_nullary rfl ?_
  refine ranked_binary rfl (by decide) (by decide) ?_
  refine ranked_unary rfl (by decide) ?_
  refine ranked_unary rfl (by decide) ?_
  refine ranked_unary rfl (by decide) ?_
  refine ranked_binary rfl (by decide) (by decide) ?_
  refine ranked_unary rfl (by decide) ?_
  refine ranked_nullary rfl ?_
  refine ranked_unary rfl (by decide) ?_
  refine ranked_binary rfl (by decide) (by decide) ?_
  refine ranked_binary rfl (by decide) (by decide) ?_
  refine ranked_unary rfl (by decide) ?_
  refine ranked_nullary rfl ?_
  refine ranked_unary rfl (by decide) ?_
  refine ranked_binary rfl (by decide) (by decide) ?_
  refine ranked_unary rfl (by decide) ?_
  refine ranked_nullary rfl ?_
  refine ranked_unary rfl (by decide) ?_
  refine ranked_binary rfl (by decide) (by decide) ?_
  refine ranked_binary rfl (by decide) (by decide) ?_
  refine ranked_binary rfl (by decide) (by decide) ?_
  refine ranked_nullary rfl ?_
  refine ranked_unary rfl (by decide) ?_
  refine ranked_binary rfl (by decide) (by decide) ?_
  refine ranked_nullary rfl ?_
  refine ranked_unary rfl (by decide) ?_
  refine ranked_binary rfl (by decide) (by decide) ?_
  refine ranked_unary rfl (by decide) ?_
  refine ranked_nullary rfl ?_
  refine ranked_unary rfl (by decide) ?_
  refine ranked_binary rfl (by decide) (by decide) ?_
  refine ranked_nullary rfl ?_
  refine ranked_unary rfl (by decide) ?_
  refine ranked_binary rfl (by decide) (by decide) ?_
  refine ranked_ternary rfl (by decide) (by decide) (by decide) ?_
  refine ranked_reshape rfl (by decide) ?_
  refine ranked_nullary rfl ?_
  refine ranked_nullary rfl ?_
  refine ranked_unary rfl (by decide) ?_
  refine ranked_binary rfl (by decide) (by decide) ?_
  refine ranked_unary rfl (by decide) ?_
  refine ranked_unary rfl (by decide) ?_
  refine ranked_binary rfl (by decide) (by decide) ?_
  refine ranked_binary rfl (by decide) (by decide) ?_
  refine ranked_nullary rfl ?_
  refine ranked_binary rfl (by decide) (by decide) ?_
  refine ranked_binary rfl (by decide) (by decide) ?_
  refine ranked_nullary rfl ?_
  refine ranked_unary rfl (by decide) ?_
  refine ranked_ternary rfl (by decide) (by decide) (by decide) ?_
  refine ranked_reshape rfl (by decide) ?_
  refine ranked_unary rfl (by decide) ?_
  refine ranked_nullary rfl ?_
  refine ranked_binary rfl (by decide) (by decide) ?_
  refine ranked_unary rfl (by decide) ?_
  refine ranked_nullary rfl ?_
  refine ranked_unary rfl (by decide) ?_
  refine ranked_unary rfl (by decide) ?_
  refine ranked_ternary rfl (by decide) (by decide) (by decide) ?_
  refine ranked_nullary rfl ?_
  refine ranked_binary rfl (by decide) (by decide) ?_
  refine ranked_unary rfl (by decide) ?_
  refine ranked_binary rfl (by decide) (by decide) ?_
  exact trivial

/-- No operation of the line writes a buffer an earlier one touches. -/
theorem fresh : Fresh (ValueP.ops (F := F)) := Ranked.fresh rk 2 _ ranked

/-- The first argument's buffer, of rank 0, is written by no operation: it keeps its contents. -/
theorem st_main_arg0 (V : Valuation τ sig (Elt F)) :
    after (ValueP.ops (F := F)) V (Proc.devRef .tc main_arg0) = V (Proc.devRef .tc main_arg0) :=
  Ranked.after_of_lt rk 2 _ ranked V _ (by decide)

/-- The second argument's buffer, of rank 1, is written by no operation: it keeps its contents. -/
theorem st_main_arg1 (V : Valuation τ sig (Elt F)) :
    after (ValueP.ops (F := F)) V (Proc.devRef .tc main_arg1) = V (Proc.devRef .tc main_arg1) :=
  Ranked.after_of_lt rk 2 _ ranked V _ (by decide)

/-- A number below 72 numbers an operation of the line. -/
theorem lt_ops {p : Nat} (h : p < 72) : p < (ValueP.ops (F := F)).length := h

/-- Operation number 0, a constant: after the whole line its buffer holds that constant. -/
theorem st_main_call0_cst (V : Valuation τ sig (Elt F)) :
    after (ValueP.ops (F := F)) V (Proc.devRef .tc main_call0_cst) = ReadP.val_main_call0_cst (F := F) := by
  rw [read_nullary fresh 0 (y := main_call0_cst) (hp := lt_ops (by decide)) (hop := rfl)]; rfl

/-- Operation number 1, the maximum along an axis: after the whole line its buffer holds its stage value, that function of the
    stage values of its operands. -/
theorem st_main_call0_v0 (V : Valuation τ sig (Elt F)) :
    after (ValueP.ops (F := F)) V (Proc.devRef .tc main_call0_v0) = ReadP.val_main_call0_v0 (F := F) (V (Proc.devRef .tc main_arg0)) := by
  rw [read_binary fresh 1 (a := main_arg0) (b := main_call0_cst) (y := main_call0_v0) (hp := lt_ops (by decide))
      (hop := tref_binary_eq main_arg0 main_call0_cst main_call0_v0 (by decide) rfl (by decide) rfl (by decide) rfl
        ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F))),
    st_main_arg0 V,
    st_main_call0_cst V]; rfl

/-- Operation number 2, a constant: after the whole line its buffer holds that constant. -/
theorem st_main_call0_cst_0 (V : Valuation τ sig (Elt F)) :
    after (ValueP.ops (F := F)) V (Proc.devRef .tc main_call0_cst_0) = ReadP.val_main_call0_cst_0 (F := F) := by
  rw [read_nullary fresh 2 (y := main_call0_cst_0) (hp := lt_ops (by decide)) (hop := rfl)]; rfl

/-- Operation number 3, a broadcast: after the whole line its buffer holds its stage value, that function of the
    stage values of its operands. -/
theorem st_main_call0_v1 (V : Valuation τ sig (Elt F)) :
    after (ValueP.ops (F := F)) V (Proc.devRef .tc main_call0_v1) = ReadP.val_main_call0_v1 (F := F) := by
  rw [read_unary fresh 3 (x := main_call0_cst_0) (y := main_call0_v1) (hp := lt_ops (by decide))
      (hop := tref_unary_eq main_call0_cst_0 main_call0_v1 (by decide) rfl (by decide) rfl
        ((broadcastInDim S4096 ![] bcast_S_S4096) : (⟨S_, .f32⟩ : BufTy).Contents (Elt F) → (⟨S4096, .f32⟩ : BufTy).Contents (Elt F))),
    st_main_call0_cst_0 V]; rfl

/-- Operation number 4, the elementwise maximum: after the whole line its buffer holds its stage value, that function of the
    stage values of its operands. -/
theorem st_main_call0_v2 (V : Valuation τ sig (Elt F)) :
    after (ValueP.ops (F := F)) V (Proc.devRef .tc main_call0_v2) = ReadP.val_main_call0_v2 (F := F) (V (Proc.devRef .tc main_arg0)) := by
  rw [read_binary fresh 4 (a := main_call0_v1) (b := main_call0_v0) (y := main_call0_v2) (hp := lt_ops (by decide))
      (hop := tref_binary_eq main_call0_v1 main_call0_v0 main_call0_v2 (by decide) rfl (by decide) rfl (by decide) rfl
        (maximumf : (⟨S4096, .f32⟩ : BufTy).Contents (Elt F) → (⟨S4096, .f32⟩ : BufTy).Contents (Elt F) → (⟨S4096, .f32⟩ : BufTy).Contents (Elt F))),
    st_main_call0_v1 V,
    st_main_call0_v0 V]; rfl

/-- Operation number 5, a broadcast: after the whole line its buffer holds its stage value, that function of the
    stage values of its operands. -/
theorem st_main_call0_v3 (V : Valuation τ sig (Elt F)) :
    after (ValueP.ops (F := F)) V (Proc.devRef .tc main_call0_v3) = ReadP.val_main_call0_v3 (F := F) (V (Proc.devRef .tc main_arg0)) := by
  rw [read_unary fresh 5 (x := main_call0_v2) (y := main_call0_v3) (hp := lt_ops (by decide))
      (hop := tref_unary_eq main_call0_v2 main_call0_v3 (by decide) rfl (by decide) rfl
        ((broadcastInDim S4096x1 ![0] bcast_S4096_S4096x1_0) : (⟨S4096, .f32⟩ : BufTy).Contents (Elt F) → (⟨S4096x1, .f32⟩ : BufTy).Contents (Elt F))),
    st_main_call0_v2 V]; rfl

/-- Operation number 6, a broadcast: after the whole line its buffer holds its stage value, that function of the
    stage values of its operands. -/
theorem st_main_call0_v4 (V : Valuation τ sig (Elt F)) :
    after (ValueP.ops (F := F)) V (Proc.devRef .tc main_call0_v4) = ReadP.val_main_call0_v4 (F := F) (V (Proc.devRef .tc main_arg0)) := by
  rw [read_unary fresh 6 (x := main_call0_v3) (y := main_call0_v4) (hp := lt_ops (by decide))
      (hop := tref_unary_eq main_call0_v3 main_call0_v4 (by decide) rfl (by decide) rfl
        ((broadcastInDim S4096x32000 ![0, 1] bcast_S4096x1_S4096x32000_0_1) : (⟨S4096x1, .f32⟩ : BufTy).Contents (Elt F) → (⟨S4096x32000, .f32⟩ : BufTy).Contents (Elt F))),
    st_main_call0_v3 V]; rfl

/-- Operation number 7, the elementwise difference: after the whole line its buffer holds its stage value, that function of the
    stage values of its operands. -/
theorem st_main_call0_v5 (V : Valuation τ sig (Elt F)) :
    after (ValueP.ops (F := F)) V (Proc.devRef .tc main_call0_v5) = ReadP.val_main_call0_v5 (F := F) (V (Proc.devRef .tc main_arg0)) := by
  rw [read_binary fresh 7 (a := main_arg0) (b := main_call0_v4) (y := main_call0_v5) (hp := lt_ops (by decide))
      (hop := tref_binary_eq main_arg0 main_call0_v4 main_call0_v5 (by decide) rfl (by decide) rfl (by decide) rfl
        (subf : (⟨S4096x32000, .f32⟩ : BufTy).Contents (Elt F) → (⟨S4096x32000, .f32⟩ : BufTy).Contents (Elt F) → (⟨S4096x32000, .f32⟩ : BufTy).Contents (Elt F))),
    st_main_arg0 V,
    st_main_call0_v4 V]; rfl

/-- Operation number 8, the elementwise exponential: after the whole line its buffer holds its stage value, that function of the
    stage values of its operands. -/
theorem st_main_call0_v6 (V : Valuation τ sig (Elt F)) :
    after (ValueP.ops (F := F)) V (Proc.devRef .tc main_call0_v6) = ReadP.val_main_call0_v6 (F := F) (V (Proc.devRef .tc main_arg0)) := by
  rw [read_unary fresh 8 (x := main_call0_v5) (y := main_call0_v6) (hp := lt_ops (by decide))
      (hop := tref_unary_eq main_call0_v5 main_call0_v6 (by decide) rfl (by decide) rfl
        (Host.exp : (⟨S4096x32000, .f32⟩ : BufTy).Contents (Elt F) → (⟨S4096x32000, .f32⟩ : BufTy).Contents (Elt F))),
    st_main_call0_v5 V]; rfl

/-- Operation number 9, a constant: after the whole line its buffer holds that constant. -/
theorem st_main_call0_cst_1 (V : Valuation τ sig (Elt F)) :
    after (ValueP.ops (F := F)) V (Proc.devRef .tc main_call0_cst_1) = ReadP.val_main_call0_cst_1 (F := F) := by
  rw [read_nullary fresh 9 (y := main_call0_cst_1) (hp := lt_ops (by decide)) (hop := rfl)]; rfl

/-- Operation number 10, the sum along an axis: after the whole line its buffer holds its stage value, that function of the
    stage values of its operands. -/
theorem st_main_call0_v7 (V : Valuation τ sig (Elt F)) :
    after (ValueP.ops (F := F)) V (Proc.devRef .tc main_call0_v7) = ReadP.val_main_call0_v7 (F := F) (V (Proc.devRef .tc main_arg0)) := by
  rw [read_binary fresh 10 (a := main_call0_v6) (b := main_call0_cst_1) (y := main_call0_v7) (hp := lt_ops (by decide))
      (hop := tref_binary_eq main_call0_v6 main_call0_cst_1 main_call0_v7 (by decide) rfl (by decide) rfl (by decide) rfl
        ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F))),
    st_main_call0_v6 V,
    st_main_call0_cst_1 V]; rfl

/-- Operation number 11, a broadcast: after the whole line its buffer holds its stage value, that function of the
    stage values of its operands. -/
theorem st_main_call0_v8 (V : Valuation τ sig (Elt F)) :
    after (ValueP.ops (F := F)) V (Proc.devRef .tc main_call0_v8) = ReadP.val_main_call0_v8 (F := F) (V (Proc.devRef .tc main_arg0)) := by
  rw [read_unary fresh 11 (x := main_call0_v7) (y := main_call0_v8) (hp := lt_ops (by decide))
      (hop := tref_unary_eq main_call0_v7 main_call0_v8 (by decide) rfl (by decide) rfl
        ((broadcastInDim S4096x1 ![0] bcast_S4096_S4096x1_0) : (⟨S4096, .f32⟩ : BufTy).Contents (Elt F) → (⟨S4096x1, .f32⟩ : BufTy).Contents (Elt F))),
    st_main_call0_v7 V]; rfl

/-- Operation number 12, the elementwise logarithm: after the whole line its buffer holds its stage value, that function of the
    stage values of its operands. -/
theorem st_main_call0_v9 (V : Valuation τ sig (Elt F)) :
    after (ValueP.ops (F := F)) V (Proc.devRef .tc main_call0_v9) = ReadP.val_main_call0_v9 (F := F) (V (Proc.devRef .tc main_arg0)) := by
  rw [read_unary fresh 12 (x := main_call0_v8) (y := main_call0_v9) (hp := lt_ops (by decide))
      (hop := tref_unary_eq main_call0_v8 main_call0_v9 (by decide) rfl (by decide) rfl
        (Host.log : (⟨S4096x1, .f32⟩ : BufTy).Contents (Elt F) → (⟨S4096x1, .f32⟩ : BufTy).Contents (Elt F))),
    st_main_call0_v8 V]; rfl

/-- Operation number 13, a broadcast: after the whole line its buffer holds its stage value, that function of the
    stage values of its operands. -/
theorem st_main_call0_v10 (V : Valuation τ sig (Elt F)) :
    after (ValueP.ops (F := F)) V (Proc.devRef .tc main_call0_v10) = ReadP.val_main_call0_v10 (F := F) (V (Proc.devRef .tc main_arg0)) := by
  rw [read_unary fresh 13 (x := main_call0_v9) (y := main_call0_v10) (hp := lt_ops (by decide))
      (hop := tref_unary_eq main_call0_v9 main_call0_v10 (by decide) rfl (by decide) rfl
        ((broadcastInDim S4096x32000 ![0, 1] bcast_S4096x1_S4096x32000_0_1) : (⟨S4096x1, .f32⟩ : BufTy).Contents (Elt F) → (⟨S4096x32000, .f32⟩ : BufTy).Contents (Elt F))),
    st_main_call0_v9 V]; rfl

/-- Operation number 14, the elementwise difference: after the whole line its buffer holds its stage value, that function of the
    stage values of its operands. -/
theorem st_main_v0 (V : Valuation τ sig (Elt F)) :
    after (ValueP.ops (F := F)) V (Proc.devRef .tc main_v0) = ReadP.val_main_v0 (F := F) (V (Proc.devRef .tc main_arg0)) := by
  rw [read_binary fresh 14 (a := main_call0_v5) (b := main_call0_v10) (y := main_v0) (hp := lt_ops (by decide))
      (hop := tref_binary_eq main_call0_v5 main_call0_v10 main_v0 (by decide) rfl (by decide) rfl (by decide) rfl
        (subf : (⟨S4096x32000, .f32⟩ : BufTy).Contents (Elt F) → (⟨S4096x32000, .f32⟩ : BufTy).Contents (Elt F) → (⟨S4096x32000, .f32⟩ : BufTy).Contents (Elt F))),
    st_main_call0_v5 V,
    st_main_call0_v10 V]; rfl

/-- Operation number 15, the elementwise exponential: after the whole line its buffer holds its stage value, that function of the
    stage values of its operands. -/
theorem st_main_v1 (V : Valuation τ sig (Elt F)) :
    after (ValueP.ops (F := F)) V (Proc.devRef .tc main_v1) = ReadP.val_main_v1 (F := F) (V (Proc.devRef .tc main_arg0)) := by
  rw [read_unary fresh 15 (x := main_v0) (y := main_v1)
      (f := (Host.exp : (⟨S4096x32000, .f32⟩ : BufTy).Contents (Elt F) → (⟨S4096x32000, .f32⟩ : BufTy).Contents (Elt F)))
      (hp := lt_ops (by decide)) (hop := rfl),
    st_main_v0 V]; rfl

/-- Operation number 16, a constant: after the whole line its buffer holds that constant. -/
theorem st_main_cst (V : Valuation τ sig (Elt F)) :
    after (ValueP.ops (F := F)) V (Proc.devRef .tc main_cst) = ReadP.val_main_cst (F := F) := by
  rw [read_nullary fresh 16 (y := main_cst) (hp := lt_ops (by decide)) (hop := rfl)]; rfl

/-- Operation number 17, a broadcast: after the whole line its buffer holds its stage value, that function of the
    stage values of its operands. -/
theorem st_main_v2 (V : Valuation τ sig (Elt F)) :
    after (ValueP.ops (F := F)) V (Proc.devRef .tc main_v2) = ReadP.val_main_v2 (F := F) := by
  rw [read_unary fresh 17 (x := main_cst) (y := main_v2)
      (f := (broadcastInDim S4096x32000 ![] bcast_S_S4096x32000 : (⟨S_, .f32⟩ : BufTy).Contents (Elt F) → (⟨S4096x32000, .f32⟩ : BufTy).Contents (Elt F)))
      (hp := lt_ops (by decide)) (hop := rfl),
    st_main_cst V]; rfl

/-- Operation number 18, the elementwise difference: after the whole line its buffer holds its stage value, that function of the
    stage values of its operands. -/
theorem st_main_v3 (V : Valuation τ sig (Elt F)) :
    after (ValueP.ops (F := F)) V (Proc.devRef .tc main_v3) = ReadP.val_main_v3 (F := F) (V (Proc.devRef .tc main_arg0)) := by
  rw [read_binary fresh 18 (a := main_v1) (b := main_v2) (y := main_v3)
      (f := (subf : (⟨S4096x32000, .f32⟩ : BufTy).Contents (Elt F) → (⟨S4096x32000, .f32⟩ : BufTy).Contents (Elt F) → (⟨S4096x32000, .f32⟩ : BufTy).Contents (Elt F)))
      (hp := lt_ops (by decide)) (hop := rfl),
    st_main_v1 V,
    st_main_v2 V]; rfl

/-- Operation number 19, the elementwise product: after the whole line its buffer holds its stage value, that function of the
    stage values of its operands. -/
theorem st_main_v4 (V : Valuation τ sig (Elt F)) :
    after (ValueP.ops (F := F)) V (Proc.devRef .tc main_v4) = ReadP.val_main_v4 (F := F) (V (Proc.devRef .tc main_arg0)) := by
  rw [read_binary fresh 19 (a := main_v3) (b := main_v3) (y := main_v4)
      (f := (mulf : (⟨S4096x32000, .f32⟩ : BufTy).Contents (Elt F) → (⟨S4096x32000, .f32⟩ : BufTy).Contents (Elt F) → (⟨S4096x32000, .f32⟩ : BufTy).Contents (Elt F)))
      (hp := lt_ops (by decide)) (hop := rfl),
    st_main_v3 V]; rfl

/-- Operation number 20, the elementwise negation: after the whole line its buffer holds its stage value, that function of the
    stage values of its operands. -/
theorem st_main_v5 (V : Valuation τ sig (Elt F)) :
    after (ValueP.ops (F := F)) V (Proc.devRef .tc main_v5) = ReadP.val_main_v5 (F := F) (V (Proc.devRef .tc main_arg0)) := by
  rw [read_unary fresh 20 (x := main_v4) (y := main_v5)
      (f := (Host.negf : (⟨S4096x32000, .f32⟩ : BufTy).Contents (Elt F) → (⟨S4096x32000, .f32⟩ : BufTy).Contents (Elt F)))
      (hp := lt_ops (by decide)) (hop := rfl),
    st_main_v4 V]; rfl

/-- Operation number 21, a constant: after the whole line its buffer holds that constant. -/
theorem st_main_cst_0 (V : Valuation τ sig (Elt F)) :
    after (ValueP.ops (F := F)) V (Proc.devRef .tc main_cst_0) = ReadP.val_main_cst_0 (F := F) := by
  rw [read_nullary fresh 21 (y := main_cst_0) (hp := lt_ops (by decide)) (hop := rfl)]; rfl

/-- Operation number 22, a broadcast: after the whole line its buffer holds its stage value, that function of the
    stage values of its operands. -/
theorem st_main_v6 (V : Valuation τ sig (Elt F)) :
    after (ValueP.ops (F := F)) V (Proc.devRef .tc main_v6) = ReadP.val_main_v6 (F := F) := by
  rw [read_unary fresh 22 (x := main_cst_0) (y := main_v6)
      (f := (broadcastInDim S4096x32000 ![] bcast_S_S4096x32000 : (⟨S_, .f32⟩ : BufTy).Contents (Elt F) → (⟨S4096x32000, .f32⟩ : BufTy).Contents (Elt F)))
      (hp := lt_ops (by decide)) (hop := rfl),
    st_main_cst_0 V]; rfl

/-- Operation number 23, the elementwise quotient: after the whole line its buffer holds its stage value, that function of the
    stage values of its operands. -/
theorem st_main_v7 (V : Valuation τ sig (Elt F)) :
    after (ValueP.ops (F := F)) V (Proc.devRef .tc main_v7) = ReadP.val_main_v7 (F := F) (V (Proc.devRef .tc main_arg0)) := by
  rw [read_binary fresh 23 (a := main_v5) (b := main_v6) (y := main_v7)
      (f := (Host.divf : (⟨S4096x32000, .f32⟩ : BufTy).Contents (Elt F) → (⟨S4096x32000, .f32⟩ : BufTy).Contents (Elt F) → (⟨S4096x32000, .f32⟩ : BufTy).Contents (Elt F)))
      (hp := lt_ops (by decide)) (hop := rfl),
    st_main_v5 V,
    st_main_v6 V]; rfl

/-- Operation number 24, the elementwise exponential: after the whole line its buffer holds its stage value, that function of the
    stage values of its operands. -/
theorem st_main_v8 (V : Valuation τ sig (Elt F)) :
    after (ValueP.ops (F := F)) V (Proc.devRef .tc main_v8) = ReadP.val_main_v8 (F := F) (V (Proc.devRef .tc main_arg0)) := by
  rw [read_unary fresh 24 (x := main_v7) (y := main_v8)
      (f := (Host.exp : (⟨S4096x32000, .f32⟩ : BufTy).Contents (Elt F) → (⟨S4096x32000, .f32⟩ : BufTy).Contents (Elt F)))
      (hp := lt_ops (by decide)) (hop := rfl),
    st_main_v7 V]; rfl

/-- Operation number 25, a constant: after the whole line its buffer holds that constant. -/
theorem st_main_cst_1 (V : Valuation τ sig (Elt F)) :
    after (ValueP.ops (F := F)) V (Proc.devRef .tc main_cst_1) = ReadP.val_main_cst_1 (F := F) := by
  rw [read_nullary fresh 25 (y := main_cst_1) (hp := lt_ops (by decide)) (hop := rfl)]; rfl

/-- Operation number 26, a broadcast: after the whole line its buffer holds its stage value, that function of the
    stage values of its operands. -/
theorem st_main_v9 (V : Valuation τ sig (Elt F)) :
    after (ValueP.ops (F := F)) V (Proc.devRef .tc main_v9) = ReadP.val_main_v9 (F := F) := by
  rw [read_unary fresh 26 (x := main_cst_1) (y := main_v9)
      (f := (broadcastInDim S4096x32000 ![] bcast_S_S4096x32000 : (⟨S_, .f32⟩ : BufTy).Contents (Elt F) → (⟨S4096x32000, .f32⟩ : BufTy).Contents (Elt F)))
      (hp := lt_ops (by decide)) (hop := rfl),
    st_main_cst_1 V]; rfl

/-- Operation number 27, the elementwise product: after the whole line its buffer holds its stage value, that function of the
    stage values of its operands. -/
theorem st_main_v10 (V : Valuation τ sig (Elt F)) :
    after (ValueP.ops (F := F)) V (Proc.devRef .tc main_v10) = ReadP.val_main_v10 (F := F) (V (Proc.devRef .tc main_arg0)) := by
  rw [read_binary fresh 27 (a := main_v9) (b := main_v1) (y := main_v10)
      (f := (mulf : (⟨S4096x32000, .f32⟩ : BufTy).Contents (Elt F) → (⟨S4096x32000, .f32⟩ : BufTy).Contents (Elt F) → (⟨S4096x32000, .f32⟩ : BufTy).Contents (Elt F)))
      (hp := lt_ops (by decide)) (hop := rfl),
    st_main_v9 V,
    st_main_v1 V]; rfl

/-- Operation number 28, the elementwise difference: after the whole line its buffer holds its stage value, that function of the
    stage values of its operands. -/
theorem st_main_v11 (V : Valuation τ sig (Elt F)) :
    after (ValueP.ops (F := F)) V (Proc.devRef .tc main_v11) = ReadP.val_main_v11 (F := F) (V (Proc.devRef .tc main_arg0)) := by
  rw [read_binary fresh 28 (a := main_v8) (b := main_v10) (y := main_v11)
      (f := (subf : (⟨S4096x32000, .f32⟩ : BufTy).Contents (Elt F) → (⟨S4096x32000, .f32⟩ : BufTy).Contents (Elt F) → (⟨S4096x32000, .f32⟩ : BufTy).Contents (Elt F)))
      (hp := lt_ops (by decide)) (hop := rfl),
    st_main_v8 V,
    st_main_v10 V]; rfl

/-- Operation number 29, the elementwise product: after the whole line its buffer holds its stage value, that function of the
    stage values of its operands. -/
theorem st_main_v12 (V : Valuation τ sig (Elt F)) :
    after (ValueP.ops (F := F)) V (Proc.devRef .tc main_v12) = ReadP.val_main_v12 (F := F) (V (Proc.devRef .tc main_arg0)) := by
  rw [read_binary fresh 29 (a := main_v11) (b := main_v0) (y := main_v12)
      (f := (mulf : (⟨S4096x32000, .f32⟩ : BufTy).Contents (Elt F) → (⟨S4096x32000, .f32⟩ : BufTy).Contents (Elt F) → (⟨S4096x32000, .f32⟩ : BufTy).Contents (Elt F)))
      (hp := lt_ops (by decide)) (hop := rfl),
    st_main_v11 V,
    st_main_v0 V]; rfl

/-- Operation number 30, a constant: after the whole line its buffer holds that constant. -/
theorem st_main_c (V : Valuation τ sig (Elt F)) :
    after (ValueP.ops (F := F)) V (Proc.devRef .tc main_c) = ReadP.val_main_c (F := F) := by
  rw [read_nullary fresh 30 (y := main_c) (hp := lt_ops (by decide)) (hop := rfl)]; rfl

/-- Operation number 31, a broadcast: after the whole line its buffer holds its stage value, that function of the
    stage values of its operands. -/
theorem st_main_v13 (V : Valuation τ sig (Elt F)) :
    after (ValueP.ops (F := F)) V (Proc.devRef .tc main_v13) = ReadP.val_main_v13 (F := F) := by
  rw [read_unary fresh 31 (x := main_c) (y := main_v13)
      (f := (broadcastInDim S4096 ![] bcast_S_S4096 : (⟨S_, .i32⟩ : BufTy).Contents (Elt F) → (⟨S4096, .i32⟩ : BufTy).Contents (Elt F)))
      (hp := lt_ops (by decide)) (hop := rfl),
    st_main_c V]; rfl

/-- Operation number 32, an elementwise integer comparison: after the whole line its buffer holds its stage value, that function of the
    stage values of its operands. -/
theorem st_main_v14 (V : Valuation τ sig (Elt F)) :
    after (ValueP.ops (F := F)) V (Proc.devRef .tc main_v14) = ReadP.val_main_v14 (F := F) (V (Proc.devRef .tc main_arg1)) := by
  rw [read_binary fresh 32 (a := main_arg1) (b := main_v13) (y := main_v14)
      (f := (cmpi .ne : (⟨S4096, .i32⟩ : BufTy).Contents (Elt F) → (⟨S4096, .i32⟩ : BufTy).Contents (Elt F) → (⟨S4096, .i1⟩ : BufTy).Contents (Elt F)))
      (hp := lt_ops (by decide)) (hop := rfl),
    st_main_arg1 V,
    st_main_v13 V]; rfl

/-- Operation number 33, a constant: after the whole line its buffer holds that constant. -/
theorem st_main_c_2 (V : Valuation τ sig (Elt F)) :
    after (ValueP.ops (F := F)) V (Proc.devRef .tc main_c_2) = ReadP.val_main_c_2 (F := F) := by
  rw [read_nullary fresh 33 (y := main_c_2) (hp := lt_ops (by decide)) (hop := rfl)]; rfl

/-- Operation number 34, a broadcast: after the whole line its buffer holds its stage value, that function of the
    stage values of its operands. -/
theorem st_main_v15 (V : Valuation τ sig (Elt F)) :
    after (ValueP.ops (F := F)) V (Proc.devRef .tc main_v15) = ReadP.val_main_v15 (F := F) := by
  rw [read_unary fresh 34 (x := main_c_2) (y := main_v15)
      (f := (broadcastInDim S4096 ![] bcast_S_S4096 : (⟨S_, .i32⟩ : BufTy).Contents (Elt F) → (⟨S4096, .i32⟩ : BufTy).Contents (Elt F)))
      (hp := lt_ops (by decide)) (hop := rfl),
    st_main_c_2 V]; rfl

/-- Operation number 35, the elementwise integer maximum: after the whole line its buffer holds its stage value, that function of the
    stage values of its operands. -/
theorem st_main_v16 (V : Valuation τ sig (Elt F)) :
    after (ValueP.ops (F := F)) V (Proc.devRef .tc main_v16) = ReadP.val_main_v16 (F := F) (V (Proc.devRef .tc main_arg1)) := by
  rw [read_binary fresh 35 (a := main_arg1) (b := main_v15) (y := main_v16)
      (f := (maxsi : (⟨S4096, .i32⟩ : BufTy).Contents (Elt F) → (⟨S4096, .i32⟩ : BufTy).Contents (Elt F) → (⟨S4096, .i32⟩ : BufTy).Contents (Elt F)))
      (hp := lt_ops (by decide)) (hop := rfl),
    st_main_arg1 V,
    st_main_v15 V]; rfl

/-- Operation number 36, a broadcast: after the whole line its buffer holds its stage value, that function of the
    stage values of its operands. -/
theorem st_main_v17 (V : Valuation τ sig (Elt F)) :
    after (ValueP.ops (F := F)) V (Proc.devRef .tc main_v17) = ReadP.val_main_v17 (F := F) (V (Proc.devRef .tc main_arg1)) := by
  rw [read_unary fresh 36 (x := main_v16) (y := main_v17)
      (f := (broadcastInDim S4096x1 ![0] bcast_S4096_S4096x1_0 : (⟨S4096, .i32⟩ : BufTy).Contents (Elt F) → (⟨S4096x1, .i32⟩ : BufTy).Contents (Elt F)))
      (hp := lt_ops (by decide)) (hop := rfl),
    st_main_v16 V]; rfl

/-- Operation number 37, a constant: after the whole line its buffer holds that constant. -/
theorem st_main_call1_c (V : Valuation τ sig (Elt F)) :
    after (ValueP.ops (F := F)) V (Proc.devRef .tc main_call1_c) = ReadP.val_main_call1_c (F := F) := by
  rw [read_nullary fresh 37 (y := main_call1_c) (hp := lt_ops (by decide)) (hop := rfl)]; rfl

/-- Operation number 38, a broadcast: after the whole line its buffer holds its stage value, that function of the
    stage values of its operands. -/
theorem st_main_call1_v0 (V : Valuation τ sig (Elt F)) :
    after (ValueP.ops (F := F)) V (Proc.devRef .tc main_call1_v0) = ReadP.val_main_call1_v0 (F := F) := by
  rw [read_unary fresh 38 (x := main_call1_c) (y := main_call1_v0) (hp := lt_ops (by decide))
      (hop := tref_unary_eq main_call1_c main_call1_v0 (by decide) rfl (by decide) rfl
        ((broadcastInDim S4096x1 ![] bcast_S_S4096x1) : (⟨S_, .i32⟩ : BufTy).Contents (Elt F) → (⟨S4096x1, .i32⟩ : BufTy).Contents (Elt F))),
    st_main_call1_c V]; rfl

/-- Operation number 39, an elementwise integer comparison: after the whole line its buffer holds its stage value, that function of the
    stage values of its operands. -/
theorem st_main_call1_v1 (V : Valuation τ sig (Elt F)) :
    after (ValueP.ops (F := F)) V (Proc.devRef .tc main_call1_v1) = ReadP.val_main_call1_v1 (F := F) (V (Proc.devRef .tc main_arg1)) := by
  rw [read_binary fresh 39 (a := main_v17) (b := main_call1_v0) (y := main_call1_v1) (hp := lt_ops (by decide))
      (hop := tref_binary_eq main_v17 main_call1_v0 main_call1_v1 (by decide) rfl (by decide) rfl (by decide) rfl
        ((cmpi .slt) : (⟨S4096x1, .i32⟩ : BufTy).Contents (Elt F) → (⟨S4096x1, .i32⟩ : BufTy).Contents (Elt F) → (⟨S4096x1, .i1⟩ : BufTy).Contents (Elt F))),
    st_main_v17 V,
    st_main_call1_v0 V]; rfl

/-- Operation number 40, a constant: after the whole line its buffer holds that constant. -/
theorem st_main_call1_c_0 (V : Valuation τ sig (Elt F)) :
    after (ValueP.ops (F := F)) V (Proc.devRef .tc main_call1_c_0) = ReadP.val_main_call1_c_0 (F := F) := by
  rw [read_nullary fresh 40 (y := main_call1_c_0) (hp := lt_ops (by decide)) (hop := rfl)]; rfl

/-- Operation number 41, a broadcast: after the whole line its buffer holds its stage value, that function of the
    stage values of its operands. -/
theorem st_main_call1_v2 (V : Valuation τ sig (Elt F)) :
    after (ValueP.ops (F := F)) V (Proc.devRef .tc main_call1_v2) = ReadP.val_main_call1_v2 (F := F) := by
  rw [read_unary fresh 41 (x := main_call1_c_0) (y := main_call1_v2) (hp := lt_ops (by decide))
      (hop := tref_unary_eq main_call1_c_0 main_call1_v2 (by decide) rfl (by decide) rfl
        ((broadcastInDim S4096x1 ![] bcast_S_S4096x1) : (⟨S_, .i32⟩ : BufTy).Contents (Elt F) → (⟨S4096x1, .i32⟩ : BufTy).Contents (Elt F))),
    st_main_call1_c_0 V]; rfl

/-- Operation number 42, the elementwise integer sum: after the whole line its buffer holds its stage value, that function of the
    stage values of its operands. -/
theorem st_main_call1_v3 (V : Valuation τ sig (Elt F)) :
    after (ValueP.ops (F := F)) V (Proc.devRef .tc main_call1_v3) = ReadP.val_main_call1_v3 (F := F) (V (Proc.devRef .tc main_arg1)) := by
  rw [read_binary fresh 42 (a := main_v17) (b := main_call1_v2) (y := main_call1_v3) (hp := lt_ops (by decide))
      (hop := tref_binary_eq main_v17 main_call1_v2 main_call1_v3 (by decide) rfl (by decide) rfl (by decide) rfl
        (addi : (⟨S4096x1, .i32⟩ : BufTy).Contents (Elt F) → (⟨S4096x1, .i32⟩ : BufTy).Contents (Elt F) → (⟨S4096x1, .i32⟩ : BufTy).Contents (Elt F))),
    st_main_v17 V,
    st_main_call1_v2 V]; rfl

/-- Operation number 43, the elementwise choice by a mask: after the whole line its buffer holds its stage value, that function of the
    stage values of its operands. -/
theorem st_main_call1_v4 (V : Valuation τ sig (Elt F)) :
    after (ValueP.ops (F := F)) V (Proc.devRef .tc main_call1_v4) = ReadP.val_main_call1_v4 (F := F) (V (Proc.devRef .tc main_arg1)) := by
  rw [read_ternary fresh 43 (c := main_call1_v1) (a := main_call1_v3) (b := main_v17) (y := main_call1_v4) (hp := lt_ops (by decide))
      (hop := tref_ternary_eq main_call1_v1 main_call1_v3 main_v17 main_call1_v4 (by decide) rfl (by decide) rfl (by decide) rfl (by decide) rfl
        (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))),
    st_main_call1_v1 V,
    st_main_call1_v3 V,
    st_main_v17 V]; rfl

/-- Operation number 44, a reshape: after the whole line its buffer holds its stage value, that function of the
    stage values of its operands. -/
theorem st_main_call1_v5 (V : Valuation τ sig (Elt F)) :
    after (ValueP.ops (F := F)) V (Proc.devRef .tc main_call1_v5) = ReadP.val_main_call1_v5 (F := F) (V (Proc.devRef .tc main_arg1)) := by
  rw [read_reshape fresh 44 (x := main_call1_v4) (y := main_call1_v5) (hp := lt_ops (by decide)) (hop := rfl),
    st_main_call1_v4 V]; rfl

/-- Operation number 45, a constant: after the whole line its buffer holds that constant. -/
theorem st_main_call1_c_1 (V : Valuation τ sig (Elt F)) :
    after (ValueP.ops (F := F)) V (Proc.devRef .tc main_call1_c_1) = ReadP.val_main_call1_c_1 (F := F) := by
  rw [read_nullary fresh 45 (y := main_call1_c_1) (hp := lt_ops (by decide)) (hop := rfl)]; rfl

/-- Operation number 46, a constant: after the whole line its buffer holds that constant. -/
theorem st_main_call1_c_2 (V : Valuation τ sig (Elt F)) :
    after (ValueP.ops (F := F)) V (Proc.devRef .tc main_call1_c_2) = ReadP.val_main_call1_c_2 (F := F) := by
  rw [read_nullary fresh 46 (y := main_call1_c_2) (hp := lt_ops (by decide)) (hop := rfl)]; rfl

/-- Operation number 47, a broadcast: after the whole line its buffer holds its stage value, that function of the
    stage values of its operands. -/
theorem st_main_call1_v6 (V : Valuation τ sig (Elt F)) :
    after (ValueP.ops (F := F)) V (Proc.devRef .tc main_call1_v6) = ReadP.val_main_call1_v6 (F := F) := by
  rw [read_unary fresh 47 (x := main_call1_c_2) (y := main_call1_v6) (hp := lt_ops (by decide))
      (hop := tref_unary_eq main_call1_c_2 main_call1_v6 (by decide) rfl (by decide) rfl
        ((broadcastInDim S4096x1x1 ![] bcast_S_S4096x1x1) : (⟨S_, .i32⟩ : BufTy).Contents (Elt F) → (⟨S4096x1x1, .i32⟩ : BufTy).Contents (Elt F))),
    st_main_call1_c_2 V]; rfl

/-- Operation number 48, an elementwise integer comparison: after the whole line its buffer holds its stage value, that function of the
    stage values of its operands. -/
theorem st_main_call1_v7 (V : Valuation τ sig (Elt F)) :
    after (ValueP.ops (F := F)) V (Proc.devRef .tc main_call1_v7) = ReadP.val_main_call1_v7 (F := F) (V (Proc.devRef .tc main_arg1)) := by
  rw [read_binary fresh 48 (a := main_call1_v5) (b := main_call1_v6) (y := main_call1_v7) (hp := lt_ops (by decide))
      (hop := tref_binary_eq main_call1_v5 main_call1_v6 main_call1_v7 (by decide) rfl (by decide) rfl (by decide) rfl
        ((cmpi .sge) : (⟨S4096x1x1, .i32⟩ : BufTy).Contents (Elt F) → (⟨S4096x1x1, .i32⟩ : BufTy).Contents (Elt F) → (⟨S4096x1x1, .i1⟩ : BufTy).Contents (Elt F))),
    st_main_call1_v5 V,
    st_main_call1_v6 V]; rfl

/-- Operation number 49, a broadcast: after the whole line its buffer holds its stage value, that function of the
    stage values of its operands. -/
theorem st_main_call1_v8 (V : Valuation τ sig (Elt F)) :
    after (ValueP.ops (F := F)) V (Proc.devRef .tc main_call1_v8) = ReadP.val_main_call1_v8 (F := F) := by
  rw [read_unary fresh 49 (x := main_call1_c_1) (y := main_call1_v8) (hp := lt_ops (by decide))
      (hop := tref_unary_eq main_call1_c_1 main_call1_v8 (by decide) rfl (by decide) rfl
        ((broadcastInDim S1x1x1 ![2] bcast_S1_S1x1x1_2) : (⟨S1, .i32⟩ : BufTy).Contents (Elt F) → (⟨S1x1x1, .i32⟩ : BufTy).Contents (Elt F))),
    st_main_call1_c_1 V]; rfl

/-- Operation number 50, a broadcast: after the whole line its buffer holds its stage value, that function of the
    stage values of its operands. -/
theorem st_main_call1_v9 (V : Valuation τ sig (Elt F)) :
    after (ValueP.ops (F := F)) V (Proc.devRef .tc main_call1_v9) = ReadP.val_main_call1_v9 (F := F) := by
  rw [read_unary fresh 50 (x := main_call1_v8) (y := main_call1_v9) (hp := lt_ops (by decide))
      (hop := tref_unary_eq main_call1_v8 main_call1_v9 (by decide) rfl (by decide) rfl
        ((broadcastInDim S4096x1x1 ![0, 1, 2] bcast_S1x1x1_S4096x1x1_0_1_2) : (⟨S1x1x1, .i32⟩ : BufTy).Contents (Elt F) → (⟨S4096x1x1, .i32⟩ : BufTy).Contents (Elt F))),
    st_main_call1_v8 V]; rfl

/-- Operation number 51, an elementwise integer comparison: after the whole line its buffer holds its stage value, that function of the
    stage values of its operands. -/
theorem st_main_call1_v10 (V : Valuation τ sig (Elt F)) :
    after (ValueP.ops (F := F)) V (Proc.devRef .tc main_call1_v10) = ReadP.val_main_call1_v10 (F := F) (V (Proc.devRef .tc main_arg1)) := by
  rw [read_binary fresh 51 (a := main_call1_v5) (b := main_call1_v9) (y := main_call1_v10) (hp := lt_ops (by decide))
      (hop := tref_binary_eq main_call1_v5 main_call1_v9 main_call1_v10 (by decide) rfl (by decide) rfl (by decide) rfl
        ((cmpi .sle) : (⟨S4096x1x1, .i32⟩ : BufTy).Contents (Elt F) → (⟨S4096x1x1, .i32⟩ : BufTy).Contents (Elt F) → (⟨S4096x1x1, .i1⟩ : BufTy).Contents (Elt F))),
    st_main_call1_v5 V,
    st_main_call1_v9 V]; rfl

/-- Operation number 52, the elementwise conjunction: after the whole line its buffer holds its stage value, that function of the
    stage values of its operands. -/
theorem st_main_call1_v11 (V : Valuation τ sig (Elt F)) :
    after (ValueP.ops (F := F)) V (Proc.devRef .tc main_call1_v11) = ReadP.val_main_call1_v11 (F := F) (V (Proc.devRef .tc main_arg1)) := by
  rw [read_binary fresh 52 (a := main_call1_v7) (b := main_call1_v10) (y := main_call1_v11) (hp := lt_ops (by decide))
      (hop := tref_binary_eq main_call1_v7 main_call1_v10 main_call1_v11 (by decide) rfl (by decide) rfl (by decide) rfl
        (andi : (⟨S4096x1x1, .i1⟩ : BufTy).Contents (Elt F) → (⟨S4096x1x1, .i1⟩ : BufTy).Contents (Elt F) → (⟨S4096x1x1, .i1⟩ : BufTy).Contents (Elt F))),
    st_main_call1_v7 V,
    st_main_call1_v10 V]; rfl

/-- Operation number 53, a constant: after the whole line its buffer holds that constant. -/
theorem st_main_call1_c_3 (V : Valuation τ sig (Elt F)) :
    after (ValueP.ops (F := F)) V (Proc.devRef .tc main_call1_c_3) = ReadP.val_main_call1_c_3 (F := F) := by
  rw [read_nullary fresh 53 (y := main_call1_c_3) (hp := lt_ops (by decide)) (hop := rfl)]; rfl

/-- Operation number 54, the conjunction along an axis: after the whole line its buffer holds its stage value, that function of the
    stage values of its operands. -/
theorem st_main_call1_v12 (V : Valuation τ sig (Elt F)) :
    after (ValueP.ops (F := F)) V (Proc.devRef .tc main_call1_v12) = ReadP.val_main_call1_v12 (F := F) (V (Proc.devRef .tc main_arg1)) := by
  rw [read_binary fresh 54 (a := main_call1_v11) (b := main_call1_c_3) (y := main_call1_v12) (hp := lt_ops (by decide))
      (hop := tref_binary_eq main_call1_v11 main_call1_c_3 main_call1_v12 (by decide) rfl (by decide) rfl (by decide) rfl
        ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F))),
    st_main_call1_v11 V,
    st_main_call1_c_3 V]; rfl

/-- Operation number 55, the pick of one entry per row at the row's index: after the whole line its buffer holds its stage value, that function of the
    stage values of its operands. -/
theorem st_main_call1_v13 (V : Valuation τ sig (Elt F)) :
    after (ValueP.ops (F := F)) V (Proc.devRef .tc main_call1_v13) = ReadP.val_main_call1_v13 (F := F) (V (Proc.devRef .tc main_arg0)) (V (Proc.devRef .tc main_arg1)) := by
  rw [read_binary fresh 55 (a := main_v12) (b := main_call1_v5) (y := main_call1_v13) (hp := lt_ops (by decide))
      (hop := tref_binary_eq main_v12 main_call1_v5 main_call1_v13 (by decide) rfl (by decide) rfl (by decide) rfl
        ((fun x i => Host.gather gather_S4096x32000_S4096x1x1_S4096x1_n_1_0_0_1_2_11 x i) : (⟨S4096x32000, .f32⟩ : BufTy).Contents (Elt F) → (⟨S4096x1x1, .i32⟩ : BufTy).Contents (Elt F) → (⟨S4096x1, .f32⟩ : BufTy).Contents (Elt F))),
    st_main_v12 V,
    st_main_call1_v5 V]; rfl

/-- Operation number 56, a constant: after the whole line its buffer holds that constant. -/
theorem st_main_call1_cst (V : Valuation τ sig (Elt F)) :
    after (ValueP.ops (F := F)) V (Proc.devRef .tc main_call1_cst) = ReadP.val_main_call1_cst (F := F) := by
  rw [read_nullary fresh 56 (y := main_call1_cst) (hp := lt_ops (by decide)) (hop := rfl)]; rfl

/-- Operation number 57, a broadcast: after the whole line its buffer holds its stage value, that function of the
    stage values of its operands. -/
theorem st_main_call1_v14 (V : Valuation τ sig (Elt F)) :
    after (ValueP.ops (F := F)) V (Proc.devRef .tc main_call1_v14) = ReadP.val_main_call1_v14 (F := F) := by
  rw [read_unary fresh 57 (x := main_call1_cst) (y := main_call1_v14) (hp := lt_ops (by decide))
      (hop := tref_unary_eq main_call1_cst main_call1_v14 (by decide) rfl (by decide) rfl
        ((broadcastInDim S4096x1 ![] bcast_S_S4096x1) : (⟨S_, .f32⟩ : BufTy).Contents (Elt F) → (⟨S4096x1, .f32⟩ : BufTy).Contents (Elt F))),
    st_main_call1_cst V]; rfl

/-- Operation number 58, the elementwise choice by a mask: after the whole line its buffer holds its stage value, that function of the
    stage values of its operands. -/
theorem st_main_v18 (V : Valuation τ sig (Elt F)) :
    after (ValueP.ops (F := F)) V (Proc.devRef .tc main_v18) = ReadP.val_main_v18 (F := F) (V (Proc.devRef .tc main_arg0)) (V (Proc.devRef .tc main_arg1)) := by
  rw [read_ternary fresh 58 (c := main_call1_v12) (a := main_call1_v13) (b := main_call1_v14) (y := main_v18) (hp := lt_ops (by decide))
      (hop := tref_ternary_eq main_call1_v12 main_call1_v13 main_call1_v14 main_v18 (by decide) rfl (by decide) rfl (by decide) rfl (by decide) rfl
        (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F))),
    st_main_call1_v12 V,
    st_main_call1_v13 V,
    st_main_call1_v14 V]; rfl

/-- Operation number 59, a reshape: after the whole line its buffer holds its stage value, that function of the
    stage values of its operands. -/
theorem st_main_v19 (V : Valuation τ sig (Elt F)) :
    after (ValueP.ops (F := F)) V (Proc.devRef .tc main_v19) = ReadP.val_main_v19 (F := F) (V (Proc.devRef .tc main_arg0)) (V (Proc.devRef .tc main_arg1)) := by
  rw [read_reshape fresh 59 (x := main_v18) (y := main_v19) (hp := lt_ops (by decide)) (hop := rfl),
    st_main_v18 V]; rfl

/-- Operation number 60, the widening of each bit to a word: after the whole line its buffer holds its stage value, that function of the
    stage values of its operands. -/
theorem st_main_v20 (V : Valuation τ sig (Elt F)) :
    after (ValueP.ops (F := F)) V (Proc.devRef .tc main_v20) = ReadP.val_main_v20 (F := F) (V (Proc.devRef .tc main_arg1)) := by
  rw [read_unary fresh 60 (x := main_v14) (y := main_v20)
      (f := ((extui 32 · natLt_1_32) : (⟨S4096, .i1⟩ : BufTy).Contents (Elt F) → (⟨S4096, .i32⟩ : BufTy).Contents (Elt F)))
      (hp := lt_ops (by decide)) (hop := rfl),
    st_main_v14 V]; rfl

/-- Operation number 61, a constant: after the whole line its buffer holds that constant. -/
theorem st_main_c_3 (V : Valuation τ sig (Elt F)) :
    after (ValueP.ops (F := F)) V (Proc.devRef .tc main_c_3) = ReadP.val_main_c_3 (F := F) := by
  rw [read_nullary fresh 61 (y := main_c_3) (hp := lt_ops (by decide)) (hop := rfl)]; rfl

/-- Operation number 62, the integer sum along an axis: after the whole line its buffer holds its stage value, that function of the
    stage values of its operands. -/
theorem st_main_v21 (V : Valuation τ sig (Elt F)) :
    after (ValueP.ops (F := F)) V (Proc.devRef .tc main_v21) = ReadP.val_main_v21 (F := F) (V (Proc.devRef .tc main_arg1)) := by
  rw [read_binary fresh 62 (a := main_v20) (b := main_c_3) (y := main_v21)
      (f := ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)))
      (hp := lt_ops (by decide)) (hop := rfl),
    st_main_v20 V,
    st_main_c_3 V]; rfl

/-- Operation number 63, the conversion of an integer to a float: after the whole line its buffer holds its stage value, that function of the
    stage values of its operands. -/
theorem st_main_v22 (V : Valuation τ sig (Elt F)) :
    after (ValueP.ops (F := F)) V (Proc.devRef .tc main_v22) = ReadP.val_main_v22 (F := F) (V (Proc.devRef .tc main_arg1)) := by
  rw [read_unary fresh 63 (x := main_v21) (y := main_v22)
      (f := (sitofp .f32 : (⟨S_, .i32⟩ : BufTy).Contents (Elt F) → (⟨S_, .f32⟩ : BufTy).Contents (Elt F)))
      (hp := lt_ops (by decide)) (hop := rfl),
    st_main_v21 V]; rfl

/-- Operation number 64, a constant: after the whole line its buffer holds that constant. -/
theorem st_main_cst_4 (V : Valuation τ sig (Elt F)) :
    after (ValueP.ops (F := F)) V (Proc.devRef .tc main_cst_4) = ReadP.val_main_cst_4 (F := F) := by
  rw [read_nullary fresh 64 (y := main_cst_4) (hp := lt_ops (by decide)) (hop := rfl)]; rfl

/-- Operation number 65, a copy: after the whole line its buffer holds its stage value, that function of the
    stage values of its operands. -/
theorem st_main_call2_v0 (V : Valuation τ sig (Elt F)) :
    after (ValueP.ops (F := F)) V (Proc.devRef .tc main_call2_v0) = ReadP.val_main_call2_v0 (F := F) := by
  rw [read_unary fresh 65 (x := main_cst_4) (y := main_call2_v0) (hp := lt_ops (by decide))
      (hop := tref_unary_eq main_cst_4 main_call2_v0 (by decide) rfl (by decide) rfl
        (id : (⟨S_, .f32⟩ : BufTy).Contents (Elt F) → (⟨S_, .f32⟩ : BufTy).Contents (Elt F))),
    st_main_cst_4 V]; rfl

/-- Operation number 66, a broadcast: after the whole line its buffer holds its stage value, that function of the
    stage values of its operands. -/
theorem st_main_call2_v1 (V : Valuation τ sig (Elt F)) :
    after (ValueP.ops (F := F)) V (Proc.devRef .tc main_call2_v1) = ReadP.val_main_call2_v1 (F := F) := by
  rw [read_unary fresh 66 (x := main_call2_v0) (y := main_call2_v1) (hp := lt_ops (by decide))
      (hop := tref_unary_eq main_call2_v0 main_call2_v1 (by decide) rfl (by decide) rfl
        ((broadcastInDim S4096 ![] bcast_S_S4096) : (⟨S_, .f32⟩ : BufTy).Contents (Elt F) → (⟨S4096, .f32⟩ : BufTy).Contents (Elt F))),
    st_main_call2_v0 V]; rfl

/-- Operation number 67, the elementwise choice by a mask: after the whole line its buffer holds its stage value, that function of the
    stage values of its operands. -/
theorem st_main_v23 (V : Valuation τ sig (Elt F)) :
    after (ValueP.ops (F := F)) V (Proc.devRef .tc main_v23) = ReadP.val_main_v23 (F := F) (V (Proc.devRef .tc main_arg0)) (V (Proc.devRef .tc main_arg1)) := by
  rw [read_ternary fresh 67 (c := main_v14) (a := main_v19) (b := main_call2_v1) (y := main_v23) (hp := lt_ops (by decide))
      (hop := tref_ternary_eq main_v14 main_v19 main_call2_v1 main_v23 (by decide) rfl (by decide) rfl (by decide) rfl (by decide) rfl
        (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F))),
    st_main_v14 V,
    st_main_v19 V,
    st_main_call2_v1 V]; rfl

/-- Operation number 68, a constant: after the whole line its buffer holds that constant. -/
theorem st_main_cst_5 (V : Valuation τ sig (Elt F)) :
    after (ValueP.ops (F := F)) V (Proc.devRef .tc main_cst_5) = ReadP.val_main_cst_5 (F := F) := by
  rw [read_nullary fresh 68 (y := main_cst_5) (hp := lt_ops (by decide)) (hop := rfl)]; rfl

/-- Operation number 69, the sum along an axis: after the whole line its buffer holds its stage value, that function of the
    stage values of its operands. -/
theorem st_main_v24 (V : Valuation τ sig (Elt F)) :
    after (ValueP.ops (F := F)) V (Proc.devRef .tc main_v24) = ReadP.val_main_v24 (F := F) (V (Proc.devRef .tc main_arg0)) (V (Proc.devRef .tc main_arg1)) := by
  rw [read_binary fresh 69 (a := main_v23) (b := main_cst_5) (y := main_v24)
      (f := ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)))
      (hp := lt_ops (by decide)) (hop := rfl),
    st_main_v23 V,
    st_main_cst_5 V]; rfl

/-- Operation number 70, the elementwise negation: after the whole line its buffer holds its stage value, that function of the
    stage values of its operands. -/
theorem st_main_v25 (V : Valuation τ sig (Elt F)) :
    after (ValueP.ops (F := F)) V (Proc.devRef .tc main_v25) = ReadP.val_main_v25 (F := F) (V (Proc.devRef .tc main_arg0)) (V (Proc.devRef .tc main_arg1)) := by
  rw [read_unary fresh 70 (x := main_v24) (y := main_v25)
      (f := (Host.negf : (⟨S_, .f32⟩ : BufTy).Contents (Elt F) → (⟨S_, .f32⟩ : BufTy).Contents (Elt F)))
      (hp := lt_ops (by decide)) (hop := rfl),
    st_main_v24 V]; rfl

/-- Operation number 71, the elementwise quotient: after the whole line its buffer holds its stage value, that function of the
    stage values of its operands. -/
theorem st_main_v26 (V : Valuation τ sig (Elt F)) :
    after (ValueP.ops (F := F)) V (Proc.devRef .tc main_v26) = ReadP.val_main_v26 (F := F) (V (Proc.devRef .tc main_arg0)) (V (Proc.devRef .tc main_arg1)) := by
  rw [read_binary fresh 71 (a := main_v25) (b := main_v22) (y := main_v26)
      (f := (Host.divf : (⟨S_, .f32⟩ : BufTy).Contents (Elt F) → (⟨S_, .f32⟩ : BufTy).Contents (Elt F) → (⟨S_, .f32⟩ : BufTy).Contents (Elt F)))
      (hp := lt_ops (by decide)) (hop := rfl),
    st_main_v25 V,
    st_main_v22 V]; rfl

/-- On every device, from any memory with zero counters: every weakly fair execution of the reference terminates with
    the result buffer at the last stage's value of the two arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = ReadP.val_main_v26 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v26).trans ?_, (h c main_arg0).trans ?_, (h c main_arg1).trans ?_⟩)
    (ValueP.run_after m ρ)
  · exact st_main_v26 (launchContents m c)
  · exact st_main_arg0 (launchContents m c)
  · exact st_main_arg1 (launchContents m c)

end Cert.ReferenceIdeal.Stages

end
-- ==== Proof.PreRange.lean ====
import proofs.«418253_j57552561766415_3_alg».proof.Pre_finite_inputs
import Idealize.ShloMosaic.Lib.ValueIdx
import Idealize.ShloMosaic.PureOps.Ideal
import Idealize.ShloMosaic.Lib.Affine
import Idealize.ShloMosaic.Lib.ReduceAll
import Idealize.ShloMosaic.Lib.StableHlo.Predicate

/-!
# What the precondition says of the targets

The precondition is the conjunction of two "for all" tests, each an `and`-reduction of one-bit answers from the
constant `1`: every logit is finite, and every target word is below 32000 as a signed integer. When the
conjunction is `1` both reductions are `1`; an `and`-reduction that is `1` met only `1`s; and the signed
comparison of a target word with the broadcast constant 32000 being `1` says that the word's signed value is
below 32000.
-/

noncomputable section

namespace Cert.Pre_finite_inputs.Range

open Idealize.ShloMosaic Idealize.ShloMosaic.ValueIdx Cert.Pre_finite_inputs

/-- Under the precondition every target word, read as a signed integer, is below 32000. -/
theorem target_lt [Cert.Pre_finite_inputs.Facts] (x0 : FVec Ideal S4096x32000 .f32) (x1 : IVec S4096 32)
    (h : Cert.Pre_finite_inputs.fn (F := Ideal) x0 x1 = fun _ => 1#1) (R : Fin 4096) :
    (x1 (ix1 R)).toInt < 32000 := by
  have h0 := congrFun h ValueIdx.ix0
  dsimp only [Cert.Pre_finite_inputs.fn] at h0
  -- the conjunction is one, so the second test is one
  have h1 := (IntOp.andi_eq_one.1 h0).2
  -- a reduction by `and` into the one result that is one met a one at every row
  haveI : Subsingleton S_.Idx := ⟨fun a b => funext fun d => d.elim0⟩
  have h2 := Host.reduce_andi_all _ _ _ _ _ h1 (ix1 R)
  -- the signed comparison read back
  have h3 := IntOp.cmpi_slt.1 h2
  -- the broadcast constant is the word 32000 at every row, and its signed value is 32000
  rw [StableHlo.Predicate.bcast_scalar _ Facts.h_S_] at h3
  have hc : (constantI S_ 32 32000#32 (Shape.Idx.first Facts.h_S_)).toInt = 32000 := by
    show (32000#32 : BitVec 32).toInt = 32000
    decide
  rw [hc] at h3
  exact h3

end Cert.Pre_finite_inputs.Range

end
-- ==== Proof.lean ====
/-
  The certificate of a Gaussian-reweighted negative log-likelihood kernel against its reference.

  Both programs compute, from logits `x` of 4096 rows by 32000 columns and 4096 integer targets, the loss
  `-(∑ rows w) / #valid`: a row whose target is `-1` is ignored; for any other row, with `lp` the log-softmax of the row
  at the target's column and `p = exp lp`, `w = (exp (-(p - 1/2)² / 2σ²) - 0.1 p) · lp`. The kernel walks two runs of 32
  blocks of 64 rows keeping a running sum and a running count, picks the target's column by a one-hot lane sum, and
  multiplies by a constant that the certificate's table reads as the reciprocal of the reference's `2σ²`; the reference
  gathers the column and divides. On the extended reals the two are one function of the inputs (the specification
  `Cert.GaussNll.loss`), provided every target word is below 32000 — which the precondition states, the reference's
  gather being defined only there.

  The three frames are the generated frame runs (the reference's read off its run stage by stage); the one rewrite
  of the idealization is the named constant; the algebraic claim joins the kernel's run (its result read off the
  frame: the running totals as folds over each run, the two outputs, the host's tail) with the reference's.
-/
import proofs.«418253_j57552561766415_3_alg».proof.Defs
import proofs.«418253_j57552561766415_3_alg».proof.Proof.Gen.Kernel
import proofs.«418253_j57552561766415_3_alg».proof.Proof.Gen.Kernel.Frame
import proofs.«418253_j57552561766415_3_alg».proof.Proof.Gen.KernelIdeal
import proofs.«418253_j57552561766415_3_alg».proof.Proof.Gen.KernelIdeal.Frame
import proofs.«418253_j57552561766415_3_alg».proof.Proof.Gen.ReferenceIdeal
import proofs.«418253_j57552561766415_3_alg».proof.Proof.Gen.Pre_finite_inputs
import proofs.«418253_j57552561766415_3_alg».proof.Proof.KernelValue
import proofs.«418253_j57552561766415_3_alg».proof.Proof.RefValue
import proofs.«418253_j57552561766415_3_alg».proof.Proof.RefStages
import proofs.«418253_j57552561766415_3_alg».proof.Proof.PreRange
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

/-- The one rewrite of the idealization: the kernel's factor `6.766764…` is named, and the table gives the name the
    reciprocal `2^26 / 9917423` of the reference's divisor. -/
theorem preserves : Cert.preserves_Kernel_KernelIdeal :=
  IdealRules.named_const.statement Cert.KernelIdeal.κ "inv_two_var_sq" .f32 0x40D88955#32 ((67108864 / 9917423 : ℝ) : EReal) rfl

/-- On the extended reals both programs end at the loss of the logits' rows and the target words. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  have hlt : ∀ (c : Dev Cert.KernelIdeal.nD) (R : Fin 4096), (Cert.KernelIdeal.Totals.target m c R).toInt < 32000 :=
    fun c R => Cert.Pre_finite_inputs.Range.target_lt _ _ (hpre c) R
  refine ⟨fun c => (fun _ => Cert.GaussNll.loss (Cert.KernelIdeal.Totals.logits m c) (Cert.KernelIdeal.Totals.target m c)),
    Cert.KernelIdeal.Result.run m ρ hlt, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact Cert.ReferenceIdeal.RefValue.ref_value _ _ (fun R => hlt c R)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
